-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S4096x128 .f32 .bf16
  ∧ IdealRules.truncf_extf.Statement Cert.KernelIdeal.S128x384 .f32 .bf16
  ∧ IdealRules.truncf_extf.Statement Cert.KernelIdeal.S4096x128 .f32 .bf16
  ∧ IdealRules.truncf_extf.Statement Cert.KernelIdeal.S128x384 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x128 : Shape := ⟨3, ![32, 4096, 128]⟩
abbrev S32x8192x128 : Shape := ⟨3, ![32, 8192, 128]⟩
abbrev S32x8192x2 : Shape := ⟨3, ![32, 8192, 2]⟩
abbrev S128x384 : Shape := ⟨2, ![128, 384]⟩
abbrev S2x384 : Shape := ⟨2, ![2, 384]⟩
abbrev S_ : Shape := ⟨0, ![]⟩
abbrev S32x8192x1 : Shape := ⟨3, ![32, 8192, 1]⟩
abbrev S32x8192 : Shape := ⟨2, ![32, 8192]⟩

class Facts : Prop where
  bcast_S_S32x4096x128 : S_.BroadcastsInDim S32x4096x128 (![] : Fin 0 → Fin S32x4096x128.rank)
  reducesTo_S32x4096x128_S_d0_1_2 : S32x4096x128.ReducesTo [0, 1, 2] S_
  h_S_ : 0 < S_.numel
  bcast_S_S32x8192x128 : S_.BroadcastsInDim S32x8192x128 (![] : Fin 0 → Fin S32x8192x128.rank)
  reducesTo_S32x8192x128_S_d0_1_2 : S32x8192x128.ReducesTo [0, 1, 2] S_
  bcast_S_S128x384 : S_.BroadcastsInDim S128x384 (![] : Fin 0 → Fin S128x384.rank)
  reducesTo_S128x384_S_d0_1 : S128x384.ReducesTo [0, 1] S_
  bcast_S_S2x384 : S_.BroadcastsInDim S2x384 (![] : Fin 0 → Fin S2x384.rank)
  reducesTo_S2x384_S_d0_1 : S2x384.ReducesTo [0, 1] S_
  slices_S32x8192x2_S32x8192x1_0_0_1 : S32x8192x2.Slices ![0, 0, 1] S32x8192x1
  shapeCasts_S32x8192x1_S32x8192 : S32x8192x1.ShapeCasts S32x8192
  bcast_S_S32x8192 : S_.BroadcastsInDim S32x8192 (![] : Fin 0 → Fin S32x8192.rank)
  reducesTo_S32x8192_S_d0_1 : S32x8192.ReducesTo [0, 1] S_

variable [Facts]

def fn_part1 {F : FTy → Type} [FloatOps F] (main_arg2 : IVec S32x8192x2 32) (main_arg5 : FVec F S2x384 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S2x384 .f32 := Host.absf main_arg5
  let main_cst_6 : FVec F S_ .f32 := constant S_ .f32 0x7F800000#32
  let main_v20 : FVec F S2x384 .f32 := broadcastInDim S2x384 ![] bcast_S_S2x384 main_cst_6
  let main_v21 : IVec S2x384 1 := cmpf .olt main_v19 main_v20
  let main_c_7 : IVec S_ 1 := constantI S_ 1 1#1
  let main_v22 : IVec S_ 1 := (fun x v => Host.reduce IntOp.andi x v reducesTo_S2x384_S_d0_1 h_S_) main_v21 main_c_7
  let main_v23 : IVec S_ 1 := andi main_v18 main_v22
  let main_v24 : IVec S32x8192x1 32 := (extractStridedSlice S32x8192x1 ![0, 0, 1] · slices_S32x8192x2_S32x8192x1_0_0_1) main_arg2
  let main_v25 : IVec S32x8192 32 := shapeCast S32x8192 main_v24 shapeCasts_S32x8192x1_S32x8192
  let main_c_8 : IVec S_ 32 := constantI S_ 32 0#32
  let main_v26 : IVec S32x8192 32 := broadcastInDim S32x8192 ![] bcast_S_S32x8192 main_c_8
  let main_v27 : IVec S32x8192 1 := cmpi .sge main_v25 main_v26
  let main_v28 : IVec S32x8192x1 32 := (extractStridedSlice S32x8192x1 ![0, 0, 1] · slices_S32x8192x2_S32x8192x1_0_0_1) main_arg2
  let main_v29 : IVec S32x8192 32 := shapeCast S32x8192 main_v28 shapeCasts_S32x8192x1_S32x8192
  let main_c_9 : IVec S_ 32 := constantI S_ 32 4096#32
  let main_v30 : IVec S32x8192 32 := broadcastInDim S32x8192 ![] bcast_S_S32x8192 main_c_9
  let main_v31 : IVec S32x8192 1 := cmpi .slt main_v29 main_v30
  let main_v32 : IVec S32x8192 1 := andi main_v27 main_v31
  let main_c_10 : IVec S_ 1 := constantI S_ 1 1#1
  let main_v33 : IVec S_ 1 := (fun x v => Host.reduce IntOp.andi x v reducesTo_S32x8192_S_d0_1 h_S_) main_v32 main_c_10
  let main_v34 : IVec S_ 1 := andi main_v23 main_v33
  main_v34

def fn {F : FTy → Type} [FloatOps F] (main_arg0 : FVec F S32x4096x128 .f32) (main_arg1 : FVec F S32x8192x128 .f32) (main_arg2 : IVec S32x8192x2 32) (main_arg3 : FVec F S128x384 .f32) (main_arg4 : FVec F S128x384 .f32) (main_arg5 : FVec F S2x384 .f32) : IVec S_ 1 :=
  let main_v0 : FVec F S32x4096x128 .f32 := Host.absf main_arg0
  let main_cst : FVec F S_ .f32 := constant S_ .f32 0x7F800000#32
  let main_v1 : FVec F S32x4096x128 .f32 := broadcastInDim S32x4096x128 ![] bcast_S_S32x4096x128 main_cst
  let main_v2 : IVec S32x4096x128 1 := cmpf .olt main_v0 main_v1
  let main_c : IVec S_ 1 := constantI S_ 1 1#1
  let main_v3 : IVec S_ 1 := (fun x v => Host.reduce IntOp.andi x v reducesTo_S32x4096x128_S_d0_1_2 h_S_) main_v2 main_c
  let main_v4 : FVec F S32x8192x128 .f32 := Host.absf main_arg1
  let main_cst_0 : FVec F S_ .f32 := constant S_ .f32 0x7F800000#32
  let main_v5 : FVec F S32x8192x128 .f32 := broadcastInDim S32x8192x128 ![] bcast_S_S32x8192x128 main_cst_0
  let main_v6 : IVec S32x8192x128 1 := cmpf .olt main_v4 main_v5
  let main_c_1 : IVec S_ 1 := constantI S_ 1 1#1
  let main_v7 : IVec S_ 1 := (fun x v => Host.reduce IntOp.andi x v reducesTo_S32x8192x128_S_d0_1_2 h_S_) main_v6 main_c_1
  let main_v8 : IVec S_ 1 := andi main_v3 main_v7
  let main_v9 : FVec F S128x384 .f32 := Host.absf main_arg3
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128x384 .f32 := Host.absf main_arg4
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg2 main_arg5 main_v13 main_v16
-- ==== Kernel.lean ====
abbrev S32x4096x128 : Shape := ⟨3, ![32, 4096, 128]⟩
abbrev S32x8192x128 : Shape := ⟨3, ![32, 8192, 128]⟩
abbrev S32x8192x2 : Shape := ⟨3, ![32, 8192, 2]⟩
abbrev S128x384 : Shape := ⟨2, ![128, 384]⟩
abbrev S2x384 : Shape := ⟨2, ![2, 384]⟩
abbrev S32x8192x1 : Shape := ⟨3, ![32, 8192, 1]⟩
abbrev S32x8192 : Shape := ⟨2, ![32, 8192]⟩
abbrev S1x1024x128 : Shape := ⟨3, ![1, 1024, 128]⟩
abbrev S1x1024x1 : Shape := ⟨3, ![1, 1024, 1]⟩
abbrev S1x4096x128 : Shape := ⟨3, ![1, 4096, 128]⟩
abbrev S128x4096 : Shape := ⟨2, ![128, 4096]⟩
abbrev S1024x1 : Shape := ⟨2, ![1024, 1]⟩
abbrev S1024x4096 : Shape := ⟨2, ![1024, 4096]⟩
abbrev S1024x128 : Shape := ⟨2, ![1024, 128]⟩
abbrev S128x1024 : Shape := ⟨2, ![128, 1024]⟩
abbrev S4096x128 : Shape := ⟨2, ![4096, 128]⟩
abbrev S4096x384 : Shape := ⟨2, ![4096, 384]⟩
abbrev S1x384 : Shape := ⟨2, ![1, 384]⟩
abbrev S384 : Shape := ⟨1, ![384]⟩

abbrev nBuf : Space → Nat
  | .hbm => 10
  | .vmem => 12
  | .smem => 0
  | _ => 0

abbrev bufTy : (tb : Table) → Fin (tcTables nBuf tb) → BufTy
  | .hbm, ⟨0, _⟩ => ⟨S32x4096x128, .f32⟩
  | .hbm, ⟨1, _⟩ => ⟨S32x8192x128, .f32⟩
  | .hbm, ⟨2, _⟩ => ⟨S32x8192x2, .i32⟩
  | .hbm, ⟨3, _⟩ => ⟨S128x384, .f32⟩
  | .hbm, ⟨4, _⟩ => ⟨S128x384, .f32⟩
  | .hbm, ⟨5, _⟩ => ⟨S2x384, .f32⟩
  | .hbm, ⟨6, _⟩ => ⟨S32x8192x1, .i32⟩
  | .hbm, ⟨7, _⟩ => ⟨S32x8192, .i32⟩
  | .hbm, ⟨8, _⟩ => ⟨S32x8192x1, .i32⟩
  | .hbm, ⟨9, _⟩ => ⟨S32x4096x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1, .i32⟩
  | .local _ .vmem, ⟨3, _⟩ => ⟨S1x1024x1, .i32⟩
  | .local _ .vmem, ⟨4, _⟩ => ⟨S1x4096x128, .f32⟩
  | .local _ .vmem, ⟨5, _⟩ => ⟨S1x4096x128, .f32⟩
  | .local _ .vmem, ⟨6, _⟩ => ⟨S128x384, .f32⟩
  | .local _ .vmem, ⟨7, _⟩ => ⟨S128x384, .f32⟩
  | .local _ .vmem, ⟨8, _⟩ => ⟨S2x384, .f32⟩
  | .local _ .vmem, ⟨9, _⟩ => ⟨S1x4096x128, .f32⟩
  | .local _ .vmem, ⟨10, _⟩ => ⟨S1x4096x128, .f32⟩
  | .local _ .vmem, ⟨11, _⟩ => ⟨S128x4096, .f32⟩
  | _, _ => ⟨S32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S32x8192x2_S32x8192x1_0_0_1 : S32x8192x2.Slices ![0, 0, 1] S32x8192x1
  shapeCasts_S32x8192x1_S32x8192 : S32x8192x1.ShapeCasts S32x8192
  shapeCasts_S32x8192_S32x8192x1 : S32x8192.ShapeCasts S32x8192x1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1024x4096_d1_w32 : S1024x4096.Iotas .tc 32 [1]
  broadcasts_S1024x1_S1024x4096 : S1024x1.Broadcasts S1024x4096
  natLt_1_32 : 1 < 32
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  transposes_S128x4096_p1_0_S4096x128 : S128x4096.Transposes [1, 0] S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x384_S128x384_0_0 : ∀ a, (![0, 0] : Fin 2 → Nat) a + S128x384.size a ≤ S128x384.size a
  h_S128x384 : 0 < S128x384.numel
  inb_S2x384_S1x384_0_0 : ∀ a, (![0, 0] : Fin 2 → Nat) a + S1x384.size a ≤ S2x384.size a
  h_S1x384 : 0 < S1x384.numel
  shapeCasts_S1x384_S384 : S1x384.ShapeCasts S384
  shapeCasts_S384_S1x384 : S384.ShapeCasts S1x384
  broadcasts_S1x384_S4096x384 : S1x384.Broadcasts S4096x384
  inb_S2x384_S1x384_1_0 : ∀ a, (![1, 0] : Fin 2 → Nat) a + S1x384.size a ≤ S2x384.size a
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  shapeCasts_S4096x128_S1x4096x128 : S4096x128.ShapeCasts S1x4096x128
  dot_S128x1024_S1024x4096_S128x4096_1_0_0_1_n_n_wf : DotDims.WF S128x1024 S1024x4096 S128x4096 [1] [0] [0] [1] [] []
  dot_S4096x128_S128x384_S4096x384_1_0_0_1_n_n_wf : DotDims.WF S4096x128 S128x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x8192x128.size a
  hwx0_0 : ∀ i : grid0.Coords, EltTy.bits .f32 = 32 ∨ (Rect.block (s := S32x8192x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S32x8192x1.size a
  hwx0_1 : ∀ i : grid0.Coords, EltTy.bits .i32 = 32 ∨ (Rect.block (s := S32x8192x1) S1x1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S32x4096x128.size a
  hwx0_2 : ∀ i : grid0.Coords, EltTy.bits .f32 = 32 ∨ (Rect.block (s := S32x4096x128) S1x4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x384.size a ≤ S128x384.size a
  hwx0_4 : ∀ i : grid0.Coords, EltTy.bits .f32 = 32 ∨ (Rect.block (s := S128x384) S128x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x384.size a ≤ S2x384.size a
  hwx0_5 : ∀ i : grid0.Coords, EltTy.bits .f32 = 32 ∨ (Rect.block (s := S2x384) S2x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x128.size a ≤ S32x4096x128.size a
  hwx0_6 : ∀ i : grid0.Coords, EltTy.bits .f32 = 32 ∨ (Rect.block (s := S32x4096x128) S1x4096x128.size (cc0_transform_6 i) (hinb0_6 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf

abbrev win0_0 : Pipeline.Window sig grid0 :=
  Pipeline.Window.ofSpec (Memref.whole main_arg1) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x4096x128 : Shape := ⟨3, ![32, 4096, 128]⟩
abbrev S32x8192x128 : Shape := ⟨3, ![32, 8192, 128]⟩
abbrev S32x8192x2 : Shape := ⟨3, ![32, 8192, 2]⟩
abbrev S128x384 : Shape := ⟨2, ![128, 384]⟩
abbrev S2x384 : Shape := ⟨2, ![2, 384]⟩
abbrev S32x8192x1 : Shape := ⟨3, ![32, 8192, 1]⟩
abbrev S32x8192 : Shape := ⟨2, ![32, 8192]⟩
abbrev S32 : Shape := ⟨1, ![32]⟩
abbrev S_ : Shape := ⟨0, ![]⟩
abbrev S32x1 : Shape := ⟨2, ![32, 1]⟩
abbrev S262144 : Shape := ⟨1, ![262144]⟩
abbrev S262144x128 : Shape := ⟨2, ![262144, 128]⟩
abbrev S131072x128 : Shape := ⟨2, ![131072, 128]⟩
abbrev S262144x1 : Shape := ⟨2, ![262144, 1]⟩
abbrev S131072x384 : Shape := ⟨2, ![131072, 384]⟩
abbrev S1x384 : Shape := ⟨2, ![1, 384]⟩
abbrev S384 : Shape := ⟨1, ![384]⟩

abbrev nBuf : Space → Nat
  | .hbm => 68
  | .vmem => 0
  | .smem => 0
  | _ => 0

abbrev bufTy : (tb : Table) → Fin (tcTables nBuf tb) → BufTy
  | .hbm, ⟨0, _⟩ => ⟨S32x4096x128, .f32⟩
  | .hbm, ⟨1, _⟩ => ⟨S32x8192x128, .f32⟩
  | .hbm, ⟨2, _⟩ => ⟨S32x8192x2, .i32⟩
  | .hbm, ⟨3, _⟩ => ⟨S128x384, .f32⟩
  | .hbm, ⟨4, _⟩ => ⟨S128x384, .f32⟩
  | .hbm, ⟨5, _⟩ => ⟨S2x384, .f32⟩
  | .hbm, ⟨6, _⟩ => ⟨S32x8192x1, .i32⟩
  | .hbm, ⟨7, _⟩ => ⟨S32x8192, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S32x8192, .i32⟩
  | .hbm, ⟨14, _⟩ => ⟨S32x8192, .i32⟩
  | .hbm, ⟨15, _⟩ => ⟨S262144, .i32⟩
  | .hbm, ⟨16, _⟩ => ⟨S262144x128, .f32⟩
  | .hbm, ⟨17, _⟩ => ⟨S_, .f32⟩
  | .hbm, ⟨18, _⟩ => ⟨S131072x128, .f32⟩
  | .hbm, ⟨19, _⟩ => ⟨S262144x1, .i32⟩
  | .hbm, ⟨20, _⟩ => ⟨S131072x128, .f32⟩
  | .hbm, ⟨21, _⟩ => ⟨S131072x128, .f32⟩
  | .hbm, ⟨22, _⟩ => ⟨S131072x384, .f32⟩
  | .hbm, ⟨23, _⟩ => ⟨S1x384, .f32⟩
  | .hbm, ⟨24, _⟩ => ⟨S384, .f32⟩
  | .hbm, ⟨25, _⟩ => ⟨S1x384, .f32⟩
  | .hbm, ⟨26, _⟩ => ⟨S131072x384, .f32⟩
  | .hbm, ⟨27, _⟩ => ⟨S131072x384, .f32⟩
  | .hbm, ⟨28, _⟩ => ⟨S131072x384, .f32⟩
  | .hbm, ⟨29, _⟩ => ⟨S1x384, .f32⟩
  | .hbm, ⟨30, _⟩ => ⟨S384, .f32⟩
  | .hbm, ⟨31, _⟩ => ⟨S1x384, .f32⟩
  | .hbm, ⟨32, _⟩ => ⟨S131072x384, .f32⟩
  | .hbm, ⟨33, _⟩ => ⟨S131072x384, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S_, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S_, .f32⟩
  | .hbm, ⟨53, _⟩ => ⟨S131072x128, .f32⟩
  | .hbm, ⟨54, _⟩ => ⟨S131072x128, .f32⟩
  | .hbm, ⟨55, _⟩ => ⟨S_, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S131072x128, .f32⟩
  | .hbm, ⟨61, _⟩ => ⟨S131072x128, .f32⟩
  | .hbm, ⟨62, _⟩ => ⟨S_, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S131072x128, .f32⟩
  | .hbm, ⟨67, _⟩ => ⟨S32x4096x128, .f32⟩
  | _, _ => ⟨S32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]

class Facts₀ : Prop where
  slices_S32x8192x2_S32x8192x1_0_0_1 : S32x8192x2.Slices ![0, 0, 1] S32x8192x1
  shapeCasts_S32x8192x1_S32x8192 : S32x8192x1.ShapeCasts S32x8192
  bcast_S_S32 : S_.BroadcastsInDim S32 (![] : Fin 0 → Fin S32.rank)
  bcast_S32_S32x1_0 : S32.BroadcastsInDim S32x1 (![0] : Fin 1 → Fin S32x1.rank)
  bcast_S32x1_S32x8192_0_1 : S32x1.BroadcastsInDim S32x8192 (![0, 1] : Fin 2 → Fin S32x8192.rank)
  shapeCasts_S32x8192_S262144 : S32x8192.ShapeCasts S262144
  shapeCasts_S32x8192x128_S262144x128 : S32x8192x128.ShapeCasts S262144x128
  bcast_S_S131072x128 : S_.BroadcastsInDim S131072x128 (![] : Fin 0 → Fin S131072x128.rank)
  bcast_S262144_S262144x1_0 : S262144.BroadcastsInDim S262144x1 (![0] : Fin 1 → Fin S262144x1.rank)
  shapeCasts_S32x4096x128_S131072x128 : S32x4096x128.ShapeCasts S131072x128
  slices_S2x384_S1x384_0_0 : S2x384.Slices ![0, 0] S1x384
  shapeCasts_S1x384_S384 : S1x384.ShapeCasts S384
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  slices_S2x384_S1x384_1_0 : S2x384.Slices ![1, 0] S1x384
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  shapeCasts_S131072x128_S32x4096x128 : S131072x128.ShapeCasts S32x4096x128
  scatter_S131072x128_S262144x1_S262144x128_1_0_0_1_wf : ScatterDims.WF S131072x128 S262144x1 S262144x128 [1] [0] [0] 1
  dot_S131072x128_S128x384_S131072x384_1_0_0_1_n_n_wf : DotDims.WF S131072x128 S128x384 S131072x384 [1] [0] [0] [1] [] []

variable [Facts₀]

def scatter_S131072x128_S262144x1_S262144x128_1_0_0_1 : ScatterDims S131072x128 S262144x1 S262144x128 where
  updateWindowDims := [1]
  insertedWindowDims := [0]
  scatterDimsToOperandDims := [0]
  indexVectorDim := 1
  wf := scatter_S131072x128_S262144x1_S262144x128_1_0_0_1_wf
def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf

class Facts : Prop extends Facts₀ where

variable [Facts]
-- ==== Proof.GruSpec.lean ====
/-
  The mathematics both programs compute, stated once over plain functions on the extended reals.

  One graph-network layer: every atom `n` of molecule `b` first collects the messages of the edges that point at
  it, `agg b n k = ∑ e, [tgt b e = n] · msg b e k`, and then a GRU cell updates the atom's state `h` from that
  aggregate:  `X = agg · K + bias₀`, `H = h · RK + bias₁`  (rows of 384 = three gates of 128),
  `z = σ(X_z + H_z)`, `r = σ(X_r + H_r)`, `c = tanh(X_h + r · H_h)`, `h' = z · h + (1 − z) · c`.
-/
import Idealize.ShloMosaic.PureOps.Ideal
import Idealize.ShloMosaic.PureOps.Ideal.Laws
import Idealize.ShloMosaic.Lib.ValueIdx

noncomputable section

namespace Cert.GruSpec

open Idealize.ShloMosaic Idealize.ShloMosaic.ValueIdx

abbrev SAtom : Shape := ⟨3, ![32, 4096, 128]⟩
abbrev SMsg : Shape := ⟨3, ![32, 8192, 128]⟩
abbrev SConn : Shape := ⟨3, ![32, 8192, 2]⟩
abbrev SW : Shape := ⟨2, ![128, 384]⟩
abbrev SBias : Shape := ⟨2, ![2, 384]⟩

/-- Gate `g ∈ {0, 1, 2}` of feature `d`: column `128·g + d` of a 384-wide row. -/
abbrev col (g : Fin 3) (d : Fin 128) : Fin 384 := ⟨128 * g.val + d.val, by have := g.isLt; have := d.isLt; omega⟩

/-- The messages of molecule `b` whose edge points at atom `n`, summed, at feature `k`. -/
def agg (msg : SMsg.Idx → EReal) (conn : SConn.Idx → BitVec 32) (b : Fin 32) (n : Fin 4096) (k : Fin 128) : EReal :=
  ∑ e : Fin 8192, if conn (ix3 b e (1 : Fin 2)) = BitVec.ofNat 32 n.val then msg (ix3 b e k) else 0

/-- The input projection of the aggregate: row `(b, n)` of `agg · K + bias₀`. -/
def matX (msg : SMsg.Idx → EReal) (conn : SConn.Idx → BitVec 32) (K : SW.Idx → EReal) (bias : SBias.Idx → EReal)
    (b : Fin 32) (n : Fin 4096) (j : Fin 384) : EReal :=
  (∑ k : Fin 128, agg msg conn b n k * K (ix2 k j)) + bias (ix2 (0 : Fin 2) j)

/-- The recurrent projection of the state: row `(b, n)` of `h · RK + bias₁`. -/
def matH (h : SAtom.Idx → EReal) (RK : SW.Idx → EReal) (bias : SBias.Idx → EReal)
    (b : Fin 32) (n : Fin 4096) (j : Fin 384) : EReal :=
  (∑ k : Fin 128, h (ix3 b n k) * RK (ix2 k j)) + bias (ix2 (1 : Fin 2) j)

/-- The GRU cell on one feature: the three input-side gate values, the three state-side ones, the old state. -/
def cell (xz xr xh hz hr hh h : EReal) : EReal :=
  Ideal.logistic (xz + hz) * h
    + (Ideal.ofBits .f32 0x3F800000#32 - Ideal.logistic (xz + hz)) * Ideal.tanh (xh + Ideal.logistic (xr + hr) * hh)

/-- The layer's result at atom `(b, n)`, feature `d`. -/
def out (h : SAtom.Idx → EReal) (msg : SMsg.Idx → EReal) (conn : SConn.Idx → BitVec 32) (K RK : SW.Idx → EReal)
    (bias : SBias.Idx → EReal) (b : Fin 32) (n : Fin 4096) (d : Fin 128) : EReal :=
  cell (matX msg conn K bias b n (col 0 d)) (matX msg conn K bias b n (col 1 d)) (matX msg conn K bias b n (col 2 d))
    (matH h RK bias b n (col 0 d)) (matH h RK bias b n (col 1 d)) (matH h RK bias b n (col 2 d)) (h (ix3 b n d))

/-- The layer's result as one array. -/
def G (h : SAtom.Idx → EReal) (msg : SMsg.Idx → EReal) (conn : SConn.Idx → BitVec 32) (K RK : SW.Idx → EReal)
    (bias : SBias.Idx → EReal) : SAtom.Idx → EReal :=
  fun i => out h msg conn K RK bias (i 0) (i 1) (i 2)

theorem G_apply (h : SAtom.Idx → EReal) (msg : SMsg.Idx → EReal) (conn : SConn.Idx → BitVec 32) (K RK : SW.Idx → EReal)
    (bias : SBias.Idx → EReal) (b : Fin 32) (n : Fin 4096) (d : Fin 128) :
    G h msg conn K RK bias (ix3 b n d) = out h msg conn K RK bias b n d := rfl

/-- A real number minus itself is zero on the extended reals (false at the infinities). -/
theorem sub_self_of_real {x : EReal} (hx : ∃ r : ℝ, x = r) : x - x = 0 := by
  obtain ⟨r, rfl⟩ := hx
  rw [← EReal.coe_sub, sub_self, EReal.coe_zero]

/-- A finite sum of real numbers is a real number. -/
theorem sum_real {ι : Type} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih (fun i hi => hf i (Finset.mem_insert_of_mem hi))
    obtain ⟨q, hq⟩ := hf a (Finset.mem_insert_self a s)
    exact ⟨q + r, by rw [Finset.sum_insert ha, hr, hq, EReal.coe_add]⟩

/-- The aggregate of real messages is real. -/
theorem agg_real (msg : SMsg.Idx → EReal) (conn : SConn.Idx → BitVec 32) (hmsg : ∀ i, ∃ r : ℝ, msg i = r)
    (b : Fin 32) (n : Fin 4096) (k : Fin 128) : ∃ r : ℝ, agg msg conn b n k = r := by
  unfold agg
  refine sum_real _ _ fun e _ => ?_
  split
  · exact hmsg _
  · exact ⟨0, by simp⟩

/-- The split product `a·b + a·(b − b) + (a − a)·b` of two real vectors is the plain product `a·b`: both
    remainders vanish term by term. -/
theorem split_dot {n : Nat} (a b : Fin n → EReal) (ha : ∀ k, ∃ r : ℝ, a k = r) (hb : ∀ k, ∃ r : ℝ, b k = r) :
    ((∑ k, a k * b k) + ∑ k, a k * (b k - b k)) + ∑ k, (a k - a k) * b k = ∑ k, a k * b k := by
  have h1 : ∑ k, a k * (b k - b k) = 0 :=
    Finset.sum_eq_zero fun k _ => by rw [sub_self_of_real (hb k), mul_zero]
  have h2 : ∑ k, (a k - a k) * b k = 0 :=
    Finset.sum_eq_zero fun k _ => by rw [sub_self_of_real (ha k), zero_mul]
  rw [h1, h2, add_zero, add_zero]

end Cert.GruSpec

end
-- ==== Proof.PreDecode.lean ====
/-
  What the precondition says about the inputs, entry by entry: every float input holds real numbers, and every
  target index (column 1 of the connectivity array) names an atom of its molecule, `0 ≤ tgt < 4096`.
-/
import proofs.«406996_j88579405512822_3_alg».proof.Pre_finite_inputs
import proofs.«406996_j88579405512822_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate
import Idealize.ShloMosaic.Lib.Pipeline.Value

noncomputable section

namespace Cert.PreDecode

open Idealize.ShloMosaic Idealize.ShloMosaic.ValueIdx Cert.Pre_finite_inputs

/-- The scalar shape has exactly one index. -/
instance subsingleton_scalar_idx : Subsingleton S_.Idx := ⟨fun a b => funext fun d => d.elim0⟩

/-- The word `0x7F800000` denotes `+∞`. -/
theorem ofBits_inf : Ideal.ofBits .f32 0x7F800000#32 = ⊤ := by simp [Ideal.ofBits, Ideal.ieee]

/-- An extended real whose absolute value `max x (-x)` lies strictly below `+∞` is a real number: `⊥` and `⊤`
    both have absolute value `⊤`. -/
theorem real_of_abs_lt_top (x : EReal) (h : max x (-x) < ⊤) : ∃ r : ℝ, x = r := by
  induction x using EReal.rec with
  | bot => simp at h
  | coe r => exact ⟨r, rfl⟩
  | top => simp at h

/-- The same, with the comparison `|x| < +∞` spelt as the float operations spell it. -/
theorem real_of_cmp (x : Ideal .f32)
    (h : FloatOps.cmpf .olt (FloatOps.hostAbsf x) (FloatOps.ofBits (F := Ideal) .f32 0x7F800000#32) = 1#1) :
    ∃ r : ℝ, x = r := by
  have h' : Ideal.cmp .olt (max (x : EReal) (-(x : EReal))) (Ideal.ofBits .f32 0x7F800000#32) = 1#1 := h
  rw [ofBits_inf] at h'
  simp only [Ideal.cmp, StableHlo.Predicate.ofBool_eq_one_iff, decide_eq_true_eq] at h'
  exact real_of_abs_lt_top x h'

/-- `all (|x| < +∞)` being one: the conjunction over all entries is one only if every entry's bit is one, and then
    every entry of `x` is a real number. -/
theorem reals_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant (F := Ideal) S_ .f32 0x7F800000#32)))
          (constantI S_ 1 1#1) hr h0 ix0 = 1#1) (i : s.Idx) : ∃ r : ℝ, x i = r :=
  real_of_cmp (x i) (Host.reduce_andi_all _ _ hr h0 ix0 h i)

/-- The conjunction of two one-bit arrays is one at an index exactly when both are one there. -/
theorem andi_apply_eq_one {s : Shape} (x y : IVec s 1) (i : s.Idx) : andi x y i = 1#1 ↔ x i = 1#1 ∧ y i = 1#1 :=
  IntOp.andi_eq_one

/-- A 32-bit word that is at least 0 and below 4096, both read signed, is below 4096 read unsigned: `0 ≤ w` signed
    rules out the upper half of the words (whose signed value is `w.toNat - 2³²`, negative), and on the lower half
    the signed and the unsigned value agree. -/
theorem toNat_lt_of_signed (w : BitVec 32) (h0 : IntOp.cmpi .sge w 0#32 = 1#1) (h1 : IntOp.cmpi .slt w 4096#32 = 1#1) :
    w.toNat < 4096 := by
  simp only [IntOp.cmpi, StableHlo.Predicate.ofBool_eq_one_iff, BitVec.sle, BitVec.slt, decide_eq_true_eq] at h0 h1
  have e0 : (0#32 : BitVec 32).toInt = 0 := by decide
  have e1 : (4096#32 : BitVec 32).toInt = 4096 := by decide
  rw [e0, BitVec.toInt_eq_toNat_cond] at h0
  rw [e1, BitVec.toInt_eq_toNat_cond] at h1
  have := w.isLt
  split at h1 <;> omega

variable [Cert.Pre_finite_inputs.Facts]

/-- The printed precondition, all ones, read entry by entry. -/
theorem of_pre (a0 : FVec Ideal S32x4096x128 .f32) (a1 : FVec Ideal S32x8192x128 .f32) (a2 : IVec S32x8192x2 32)
    (a3 a4 : FVec Ideal S128x384 .f32) (a5 : FVec Ideal S2x384 .f32)
    (h : Cert.Pre_finite_inputs.fn (F := Ideal) a0 a1 a2 a3 a4 a5 = fun _ => 1#1) :
    (∀ i, ∃ r : ℝ, a0 i = r) ∧ (∀ i, ∃ r : ℝ, a1 i = r) ∧ (∀ i, ∃ r : ℝ, a3 i = r) ∧ (∀ i, ∃ r : ℝ, a4 i = r)
      ∧ (∀ i, ∃ r : ℝ, a5 i = r)
      ∧ (∀ (b : Fin 32) (e : Fin 8192), (a2 (ix3 b e (1 : Fin 2))).toNat < 4096) := by
  -- the one entry of the scalar result, with the printed chain of operations opened
  have h0 := congrFun h ix0
  dsimp only [fn, fn_part1] at h0
  -- six conjuncts: one `all` per float input, then the `all` over the target column
  rw [andi_apply_eq_one, andi_apply_eq_one, andi_apply_eq_one, andi_apply_eq_one, andi_apply_eq_one] at h0
  obtain ⟨⟨⟨⟨⟨h3, h7⟩, h12⟩, h17⟩, h22⟩, h33⟩ := h0
  refine ⟨reals_of_all a0 _ _ _ h3, reals_of_all a1 _ _ _ h7, reals_of_all a3 _ _ _ h12, reals_of_all a4 _ _ _ h17,
    reals_of_all a5 _ _ _ h22, fun b e => ?_⟩
  -- entry (b, e) of the [32, 8192] array of range bits
  have hbe := Host.reduce_andi_all _ _ _ _ ix0 h33 (ix2 b e)
  rw [andi_apply_eq_one] at hbe
  -- entry (b, e) of the reshaped slice is entry (b, e, 1) of the connectivity array: the reshape drops the unit axis
  -- (same row-major position, (b·8192 + e)·1 + 0 = b·8192 + e), the slice shifts the last coordinate by 1
  have hrd : shapeCast S32x8192 (extractStridedSlice S32x8192x1 ![0, 0, 1] a2 Facts.slices_S32x8192x2_S32x8192x1_0_0_1)
      Facts.shapeCasts_S32x8192x1_S32x8192 (ix2 b e) = a2 (ix3 b e (1 : Fin 2)) := by
    refine (shapeCast_apply _ _ (ix2 b e) (ix3 b e (0 : Fin 1)) ?_).trans ?_
    · rw [Shape.rowMajor_val_three, Shape.rowMajor_val_two]
      show ((b.val * 8192 + e.val) * 1 + 0 : Nat) = b.val * 8192 + e.val
      omega
    · refine extractStridedSlice_apply _ _ _ (ix3 b e (0 : Fin 1)) (ix3 b e (1 : Fin 2)) ?_
      intro a
      match a with
      | ⟨0, _⟩ => show b.val = 0 + b.val; omega
      | ⟨1, _⟩ => show e.val = 0 + e.val; omega
      | ⟨2, _⟩ => show (1 : Nat) = 1 + 0; omega
  exact toNat_lt_of_signed _ (hrd ▸ hbe.1) (hrd ▸ hbe.2)

end Cert.PreDecode

end
-- ==== Proof.KBlocks.lean ====
/-
  Which entries of the argument arrays a grid point sees.

  The grid is (molecule, edge tile): point `t` works on molecule `t / 8` and on the 1024 edges
  `1024·(t % 8) … 1024·(t % 8) + 1023` of that molecule. Its message block and its target-index block are those rows
  of the arrays, its state block is the molecule's whole [4096, 128] slab, the three weight blocks are the whole
  arrays. The result's block is again the molecule's slab, written back only after the molecule's last tile.
-/
import proofs.«406996_j88579405512822_3_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The molecule a grid point works on. -/
abbrev molOf (t : Fin cfg0.N) : Fin 32 :=
  ⟨t.val / 8, by have h := t.isLt; have hN : cfg0.N = 256 := N_0; omega⟩

/-- Edge `e` of a grid point's tile, as an edge of the molecule. -/
abbrev edgeOf (t : Fin cfg0.N) (e : Fin 1024) : Fin 8192 :=
  ⟨1024 * (t.val % 8) + e.val, by have h := e.isLt; omega⟩

/-- The input blocks of a point, each at its literal type. -/
abbrev msgBlk (c : Dev nD) (t : Fin cfg0.N) : Vec F S1x1024x128 .f32 := iblk m c 0 t
abbrev tgtBlk (c : Dev nD) (t : Fin cfg0.N) : Vec F S1x1024x1 .i32 := iblk m c 1 t
abbrev atomBlk (c : Dev nD) (t : Fin cfg0.N) : Vec F S1x4096x128 .f32 := iblk m c 2 t
abbrev kBlk (c : Dev nD) (t : Fin cfg0.N) : Vec F S128x384 .f32 := iblk m c 3 t
abbrev rkBlk (c : Dev nD) (t : Fin cfg0.N) : Vec F S128x384 .f32 := iblk m c 4 t
abbrev biasBlk (c : Dev nD) (t : Fin cfg0.N) : Vec F S2x384 .f32 := iblk m c 5 t

/-- The argument arrays, each at its literal type. -/
abbrev atomArr (c : Dev nD) : Vec F S32x4096x128 .f32 := m ((c : Thread nD τ).loc main_arg0)
abbrev msgArr (c : Dev nD) : Vec F S32x8192x128 .f32 := m ((c : Thread nD τ).loc main_arg1)
abbrev connArr (c : Dev nD) : Vec F S32x8192x2 .i32 := m ((c : Thread nD τ).loc main_arg2)
abbrev kArr (c : Dev nD) : Vec F S128x384 .f32 := m ((c : Thread nD τ).loc main_arg3)
abbrev rkArr (c : Dev nD) : Vec F S128x384 .f32 := m ((c : Thread nD τ).loc main_arg4)
abbrev biasArr (c : Dev nD) : Vec F S2x384 .f32 := m ((c : Thread nD τ).loc main_arg5)

/-- The printed index maps, decided over the grid: the message and target windows follow (molecule, edge tile),
    the state window and the result window follow the molecule, the weight windows stay at block 0. -/
theorem idx_msg : ∀ t : Fin cfg0.N,
    win0_0.index t (0 : Fin 3) = t.val / 8 ∧ win0_0.index t (1 : Fin 3) = t.val % 8 ∧ win0_0.index t (2 : Fin 3) = 0 :=
  (by decide +kernel : ∀ t : Fin grid0.N, _)
theorem idx_tgt : ∀ t : Fin cfg0.N,
    win0_1.index t (0 : Fin 3) = t.val / 8 ∧ win0_1.index t (1 : Fin 3) = t.val % 8 ∧ win0_1.index t (2 : Fin 3) = 0 :=
  (by decide +kernel : ∀ t : Fin grid0.N, _)
theorem idx_atom : ∀ t : Fin cfg0.N,
    win0_2.index t (0 : Fin 3) = t.val / 8 ∧ win0_2.index t (1 : Fin 3) = 0 ∧ win0_2.index t (2 : Fin 3) = 0 :=
  (by decide +kernel : ∀ t : Fin grid0.N, _)
theorem idx_k : ∀ t : Fin cfg0.N, win0_3.index t (0 : Fin 2) = 0 ∧ win0_3.index t (1 : Fin 2) = 0 :=
  (by decide +kernel : ∀ t : Fin grid0.N, _)
theorem idx_rk : ∀ t : Fin cfg0.N, win0_4.index t (0 : Fin 2) = 0 ∧ win0_4.index t (1 : Fin 2) = 0 :=
  (by decide +kernel : ∀ t : Fin grid0.N, _)
theorem idx_bias : ∀ t : Fin cfg0.N, win0_5.index t (0 : Fin 2) = 0 ∧ win0_5.index t (1 : Fin 2) = 0 :=
  (by decide +kernel : ∀ t : Fin grid0.N, _)
theorem idx_res : ∀ t : Fin cfg0.N,
    win0_6.index t (0 : Fin 3) = t.val / 8 ∧ win0_6.index t (1 : Fin 3) = 0 ∧ win0_6.index t (2 : Fin 3) = 0 :=
  (by decide +kernel : ∀ t : Fin grid0.N, _)

/-- What the host leaves in the target-index array before the call: column 1 of the connectivity array, flattened to
    [32, 8192] and given its unit axis back. -/
theorem tgtArr_eq (c : Dev nD) :
    (V m c main_v2 : S32x8192x1.Idx → Elt F .i32)
      = shapeCast S32x8192x1 (shapeCast S32x8192 (extractStridedSlice S32x8192x1 ![0, 0, 1] (connArr m c)
          slices_S32x8192x2_S32x8192x1_0_0_1) shapeCasts_S32x8192x1_S32x8192) shapeCasts_S32x8192_S32x8192x1 := by
  dsimp only [Gen.V, Gen.hostOps0]
  after_results
  rfl

/-- That array at (b, e, 0) is the connectivity array at (b, e, 1). -/
theorem tgtArr_apply (c : Dev nD) (b : Fin 32) (e : Fin 8192) :
    (V m c main_v2 : S32x8192x1.Idx → Elt F .i32) (ix3 b e (0 : Fin 1)) = connArr m c (ix3 b e (1 : Fin 2)) := by
  rw [tgtArr_eq]
  refine (shapeCast_apply _ _ (ix3 b e (0 : Fin 1)) (ix2 b e) ?_).trans ?_
  · rw [Shape.rowMajor_val_two, Shape.rowMajor_val_three]
    show b.val * 8192 + e.val = (b.val * 8192 + e.val) * 1 + 0
    omega
  refine (shapeCast_apply _ _ (ix2 b e) (ix3 b e (0 : Fin 1)) ?_).trans ?_
  · rw [Shape.rowMajor_val_two, Shape.rowMajor_val_three]
    show (b.val * 8192 + e.val) * 1 + 0 = b.val * 8192 + e.val
    omega
  refine extractStridedSlice_apply _ _ _ (ix3 b e (0 : Fin 1)) (ix3 b e (1 : Fin 2)) fun a => ?_
  match a with
  | ⟨0, _⟩ => show b.val = 0 + b.val; omega
  | ⟨1, _⟩ => show e.val = 0 + e.val; omega
  | ⟨2, _⟩ => show 1 = 1 + 0; rfl

theorem msgBlk_apply (c : Dev nD) (t : Fin cfg0.N) (e : Fin 1024) (k : Fin 128) :
    msgBlk m c t (ix3 (0 : Fin 1) e k) = msgArr m c (ix3 (molOf t) (edgeOf t e) k) := by
  obtain ⟨e0, e1, e2⟩ := idx_msg t
  show V m c main_arg1 (((cfg0.win 0).blk t).view.emb (ix3 (0 : Fin 1) e k)) = m ((c : Thread nD τ).loc main_arg1) _
  rw [V_main_arg1]
  refine congrArg _ ?_
  funext a; apply Fin.ext
  match a with
  | ⟨0, _⟩ => show win0_0.index t (0 : Fin 3) * 1 + 1 * 0 = t.val / 8; omega
  | ⟨1, _⟩ => show win0_0.index t (1 : Fin 3) * 1024 + 1 * e.val = 1024 * (t.val % 8) + e.val; omega
  | ⟨2, _⟩ => show win0_0.index t (2 : Fin 3) * 128 + 1 * k.val = k.val; omega

/-- The target-index block is column 1 of the connectivity array (the host slices it out before the call). -/
theorem tgtBlk_apply (c : Dev nD) (t : Fin cfg0.N) (e : Fin 1024) :
    tgtBlk m c t (ix3 (0 : Fin 1) e (0 : Fin 1)) = connArr m c (ix3 (molOf t) (edgeOf t e) (1 : Fin 2)) := by
  obtain ⟨e0, e1, e2⟩ := idx_tgt t
  rw [← tgtArr_apply m c (molOf t) (edgeOf t e)]
  show V m c main_v2 (((cfg0.win 1).blk t).view.emb (ix3 (0 : Fin 1) e (0 : Fin 1))) = V m c main_v2 _
  refine congrArg _ ?_
  funext a; apply Fin.ext
  match a with
  | ⟨0, _⟩ => show win0_1.index t (0 : Fin 3) * 1 + 1 * 0 = t.val / 8; omega
  | ⟨1, _⟩ => show win0_1.index t (1 : Fin 3) * 1024 + 1 * e.val = 1024 * (t.val % 8) + e.val; omega
  | ⟨2, _⟩ => show win0_1.index t (2 : Fin 3) * 1 + 1 * 0 = 0; omega

theorem atomBlk_apply (c : Dev nD) (t : Fin cfg0.N) (n : Fin 4096) (k : Fin 128) :
    atomBlk m c t (ix3 (0 : Fin 1) n k) = atomArr m c (ix3 (molOf t) n k) := by
  obtain ⟨e0, e1, e2⟩ := idx_atom t
  show V m c main_arg0 (((cfg0.win 2).blk t).view.emb (ix3 (0 : Fin 1) n k)) = m ((c : Thread nD τ).loc main_arg0) _
  rw [V_main_arg0]
  refine congrArg _ ?_
  funext a; apply Fin.ext
  match a with
  | ⟨0, _⟩ => show win0_2.index t (0 : Fin 3) * 1 + 1 * 0 = t.val / 8; omega
  | ⟨1, _⟩ => show win0_2.index t (1 : Fin 3) * 4096 + 1 * n.val = n.val; omega
  | ⟨2, _⟩ => show win0_2.index t (2 : Fin 3) * 128 + 1 * k.val = k.val; omega

theorem kBlk_eq (c : Dev nD) (t : Fin cfg0.N) : kBlk m c t = kArr m c := by
  obtain ⟨e0, e1⟩ := idx_k t
  funext j
  show V m c main_arg3 (((cfg0.win 3).blk t).view.emb j) = m ((c : Thread nD τ).loc main_arg3) j
  rw [V_main_arg3]
  refine congrArg _ ?_
  funext a; apply Fin.ext
  match a with
  | ⟨0, _⟩ => show win0_3.index t (0 : Fin 2) * 128 + 1 * (j 0).val = (j 0).val; omega
  | ⟨1, _⟩ => show win0_3.index t (1 : Fin 2) * 384 + 1 * (j 1).val = (j 1).val; omega

theorem rkBlk_eq (c : Dev nD) (t : Fin cfg0.N) : rkBlk m c t = rkArr m c := by
  obtain ⟨e0, e1⟩ := idx_rk t
  funext j
  show V m c main_arg4 (((cfg0.win 4).blk t).view.emb j) = m ((c : Thread nD τ).loc main_arg4) j
  rw [V_main_arg4]
  refine congrArg _ ?_
  funext a; apply Fin.ext
  match a with
  | ⟨0, _⟩ => show win0_4.index t (0 : Fin 2) * 128 + 1 * (j 0).val = (j 0).val; omega
  | ⟨1, _⟩ => show win0_4.index t (1 : Fin 2) * 384 + 1 * (j 1).val = (j 1).val; omega

theorem biasBlk_eq (c : Dev nD) (t : Fin cfg0.N) : biasBlk m c t = biasArr m c := by
  obtain ⟨e0, e1⟩ := idx_bias t
  funext j
  show V m c main_arg5 (((cfg0.win 5).blk t).view.emb j) = m ((c : Thread nD τ).loc main_arg5) j
  rw [V_main_arg5]
  refine congrArg _ ?_
  funext a; apply Fin.ext
  match a with
  | ⟨0, _⟩ => show win0_5.index t (0 : Fin 2) * 2 + 1 * (j 0).val = (j 0).val; omega
  | ⟨1, _⟩ => show win0_5.index t (1 : Fin 2) * 384 + 1 * (j 1).val = (j 1).val; omega

/-- The result is written back exactly after a molecule's last tile. -/
theorem flush6_iff (t : Fin cfg0.N) : (cfg0.win 6).flush t = true ↔ t.val % 8 = 7 := by
  exact flush0_6 t

/-- A staging buffer that holds molecule `t / 8`'s slab of a whole array `Gf` is, written back at `t`, the
    result block of `Gf`. -/
theorem cut6_eq_read (t : Fin cfg0.N) (Gf : Vec F S32x4096x128 .f32) (o : Vec F S1x4096x128 .f32)
    (ho : ∀ (n : Fin 4096) (d : Fin 128), o (ix3 (0 : Fin 1) n d) = Gf (ix3 (molOf t) n d)) :
    (cfg0.win 6).cut (grid0.coords t) o = ((cfg0.win 6).blk t).view.read (Elt F) Gf := by
  obtain ⟨e0, e1, e2⟩ := idx_res t
  funext j
  have h0 : (j 0).val < 1 := (j 0).isLt
  have hj : (fun a => j a : S1x4096x128.Idx) = ix3 (0 : Fin 1) (j 1 : Fin 4096) (j 2 : Fin 128) := by
    funext a
    match a with
    | ⟨0, _⟩ => exact Fin.ext (by show (j 0).val = 0; omega)
    | ⟨1, _⟩ => rfl
    | ⟨2, _⟩ => rfl
  show o (fun a => j a) = Gf (((cfg0.win 6).blk t).view.emb j)
  refine ((congrArg o hj).trans (ho (j 1) (j 2))).trans ?_
  refine congrArg Gf ?_
  funext a; apply Fin.ext
  match a with
  | ⟨0, _⟩ => show t.val / 8 = win0_6.index t (0 : Fin 3) * 1 + 1 * (j 0).val; omega
  | ⟨1, _⟩ => show (j 1).val = win0_6.index t (1 : Fin 3) * 4096 + 1 * (j 1).val; omega
  | ⟨2, _⟩ => show (j 2).val = win0_6.index t (2 : Fin 3) * 128 + 1 * (j 2).val; omega

/-- Every entry of the result lies in the block of its molecule's last tile. -/
theorem cover6 (i : S32x4096x128.Idx) :
    ∃ t : Fin cfg0.N, (cfg0.win 6).flush t = true ∧ i ∈ ((cfg0.win 6).blk t).view.set := by
  have hi0 : (i 0).val < 32 := (i 0).isLt
  have hi1 : (i 1).val < 4096 := (i 1).isLt
  have hi2 : (i 2).val < 128 := (i 2).isLt
  obtain ⟨t, ht⟩ : ∃ t : Fin cfg0.N, t.val = 8 * (i 0).val + 7 :=
    ⟨⟨8 * (i 0).val + 7, by rw [show cfg0.N = 256 from N_0]; omega⟩, rfl⟩
  obtain ⟨e0, e1, e2⟩ := idx_res t
  refine ⟨t, (flush0_6 t).mpr (by omega), ?_⟩
  show i ∈ ((View.whole main_v3).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 4096 ≤ (i 1).val ∧ (i 1).val < win0_6.index t (1 : Fin 3) * 4096 + 4096; omega
  | ⟨2, _⟩ => show win0_6.index t (2 : Fin 3) * 128 ≤ (i 2).val ∧ (i 2).val < win0_6.index t (2 : Fin 3) * 128 + 128; omega

end Cert.KernelIdeal.Blocks

end
-- ==== Proof.KPayAgg.lean ====
/-
  The kernel body's accumulator update, read at one entry on the extended reals.

  A tile's update multiplies the transposed message tile by the one-hot indicator `[n = tgt e]` and adds the product
  to the (feature, atom) accumulator. An indicator entry is 1 or 0, so the product at (feature k, atom n) is the sum
  of the tile's messages, at feature k, over the edges that point at atom n.
-/
import proofs.«406996_j88579405512822_3_alg».proof.Proof.Gen.KernelIdeal.Skeleton
import proofs.«406996_j88579405512822_3_alg».proof.Proof.GruSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.KernelIdeal.Pay

open Cert.KernelIdeal Cert.KernelIdeal.Gen Idealize.ShloMosaic Idealize.ShloMosaic.TcCoe
open Idealize.ShloMosaic.ValueIdx

/-! ## The one-hot product's operand indices

The product contracts the left operand's second axis with the right operand's first: at output entry (k, n) and
contraction index e it reads the left operand at (k, e) and the right operand at (e, n). -/

theorem lhs_agg_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_agg_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_agg_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_agg_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- The product into a zero accumulator, read at (k, n): the sum over the 1024 edges of the tile of the left operand
    at (k, e) times the right operand at (e, n). -/
theorem matmul_agg_apply (A : FVec Ideal S128x1024 .bf16) (B : FVec Ideal S1024x4096 .bf16) (k : Fin 128) (n : Fin 4096) :
    matmul dot_S128x1024_S1024x4096_S128x4096_1_0_0_1_n_n none A B (constant (F := Ideal) S128x4096 .f32 0x00000000#32) (ix2 k n)
      = ∑ e : Fin 1024, A (ix2 k e) * B (ix2 e n) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun e _ => ?_
  have he := ValueIdx.contrEquiv1_symm_val dot_S128x1024_S1024x4096_S128x4096_1_0_0_1_n_n 1024 rfl rfl e
  have el : dot_S128x1024_S1024x4096_S128x4096_1_0_0_1_n_n.lhsIdx (ix2 k n) ((ValueIdx.contrEquiv1 dot_S128x1024_S1024x4096_S128x4096_1_0_0_1_n_n 1024 rfl rfl).symm e) = ix2 k e := funext fun a => Fin.ext (by
    match a with
    | ⟨0, _⟩ => exact lhs_agg_0 _ _
    | ⟨1, _⟩ => exact (lhs_agg_1 _ _).trans he)
  have er : dot_S128x1024_S1024x4096_S128x4096_1_0_0_1_n_n.rhsIdx (ix2 k n) ((ValueIdx.contrEquiv1 dot_S128x1024_S1024x4096_S128x4096_1_0_0_1_n_n 1024 rfl rfl).symm e) = ix2 e n := funext fun a => Fin.ext (by
    match a with
    | ⟨0, _⟩ => exact (rhs_agg_0 _ _).trans he
    | ⟨1, _⟩ => exact rhs_agg_1 _ _)
  rw [el, er]

/-! ## The two operands at an entry -/

/-- A column of 1024 words broadcast along 4096 columns reads, at (e, n), the column's word e. -/
theorem broadcastTo_a1_ab_apply (v : IVec S1024x1 32) (h : S1024x1.Broadcasts S1024x4096) (e : Fin 1024) (n : Fin 4096) :
    broadcastTo S1024x4096 v h (ix2 e n) = v (ix2 e (0 : Fin 1)) := by
  refine broadcastTo_apply v h (ix2 e n) (ix2 e (0 : Fin 1)) fun ax => ?_
  match ax with
  | ⟨0, _⟩ => rfl
  | ⟨1, _⟩ => rfl

/-- The one-hot indicator at (edge e, atom n): one when the edge's target word is the atom's number, else zero. -/
theorem onehot_apply (v3 : Vec Ideal S1x1024x1 .i32) (e : Fin 1024) (n : Fin 4096) :
    (truncf .bf16 (sitofp (F := Ideal) .f32 (extui 32 (cmpi .eq (iota .tc S1024x4096 32 [1] iota_S1024x4096_d1_w32)
        (broadcastTo S1024x4096 (shapeCast S1024x1 v3 shapeCasts_S1x1024x1_S1024x1) broadcasts_S1024x1_S1024x4096)) natLt_1_32))
        bitsLt_bf16_f32 : FVec Ideal S1024x4096 .bf16) (ix2 e n)
      = if v3 (ix3 (0 : Fin 1) e (0 : Fin 1)) = BitVec.ofNat 32 n.val then (1 : EReal) else 0 := by
  rw [truncf_apply, sitofp_apply, extui_apply]
  show ((((IntOp.cmpi .eq (iota .tc S1024x4096 32 [1] iota_S1024x4096_d1_w32 (ix2 e n))
      (broadcastTo S1024x4096 (shapeCast S1024x1 v3 shapeCasts_S1x1024x1_S1024x1) broadcasts_S1024x1_S1024x4096 (ix2 e n))).setWidth 32).toInt : ℝ) : EReal) = _
  rw [iota_single_apply, broadcastTo_a1_ab_apply, shapeCast_1ab_ab_apply]
  show ((((IntOp.cmpi .eq (BitVec.ofNat 32 n.val) (v3 (ix3 (0 : Fin 1) e (0 : Fin 1)))).setWidth 32).toInt : ℝ) : EReal) = _
  by_cases h : v3 (ix3 (0 : Fin 1) e (0 : Fin 1)) = BitVec.ofNat 32 n.val
  · rw [if_pos h, StableHlo.Predicate.cmpi_eq_iff.mpr h.symm]
    show (((1 : ℤ) : ℝ) : EReal) = 1
    norm_num
  · rw [if_neg h, eq_zero_of_ne_one (fun hc => h (StableHlo.Predicate.cmpi_eq_iff.mp hc).symm)]
    show (((0 : ℤ) : ℝ) : EReal) = 0
    norm_num

/-- The transposed message tile at (feature k, edge e) is the message of edge e at feature k. -/
theorem msgT_apply (v11 : Vec Ideal S1x1024x128 .f32) (k : Fin 128) (e : Fin 1024) :
    (transpose S128x1024 [1, 0] (truncf .bf16 (shapeCast S1024x128 v11 shapeCasts_S1x1024x128_S1024x128 : FVec Ideal S1024x128 .f32) bitsLt_bf16_f32)
        transposes_S1024x128_p1_0_S128x1024 : FVec Ideal S128x1024 .bf16) (ix2 k e)
      = v11 (ix3 (0 : Fin 1) e k) := by
  rw [transpose_ix2_apply, truncf_apply, shapeCast_1ab_ab_apply]

/-- The accumulator's reset value is zero everywhere. -/
theorem pay1_apply (y : S128x4096.Idx) : k0_pay1 (F := Ideal) y = 0 := by
  unfold k0_pay1
  rw [shapeCast_self]
  exact Ideal.ofBits_zero_f32

/-- One tile's update of the (feature, atom) accumulator: what it held plus the tile's messages whose edge points
    at the atom — the product with the one-hot indicator keeps exactly those. -/
theorem pay2_apply (v3 : Vec Ideal S1x1024x1 .i32) (v11 : Vec Ideal S1x1024x128 .f32) (v16 : Vec Ideal S128x4096 .f32)
    (k : Fin 128) (n : Fin 4096) :
    k0_pay2 v3 v11 v16 (ix2 k n)
      = v16 (ix2 k n) + ∑ e : Fin 1024,
          if v3 (ix3 (0 : Fin 1) e (0 : Fin 1)) = BitVec.ofNat 32 n.val then v11 (ix3 (0 : Fin 1) e k) else 0 := by
  unfold k0_pay2
  rw [shapeCast_self, addf_apply, matmul_agg_apply]
  refine congrArg (v16 (ix2 k n) + ·) (Finset.sum_congr rfl fun e _ => ?_)
  rw [msgT_apply, onehot_apply]
  split_ifs
  · exact mul_one _
  · exact mul_zero _

end Cert.KernelIdeal.Pay

end
-- ==== Proof.KPayGru.lean ====
/-
  The kernel body's GRU arithmetic, read at one entry on the extended reals.

  Both projections are computed as three-pass products `a·b + a·(b − b) + (a − a)·b`; for real entries the two
  remainder passes vanish and each projection is the plain dot product plus its bias row. The gate arithmetic on
  the three 128-wide column groups of the two projections is the GRU cell.
-/
import proofs.«406996_j88579405512822_3_alg».proof.Proof.Gen.KernelIdeal.Skeleton
import proofs.«406996_j88579405512822_3_alg».proof.Proof.GruSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.TcCoe
open Idealize.ShloMosaic.ValueIdx

/-! ## The matrix product into a zero accumulator, read at an entry -/

/-- Output axis 0 of the product is the left operand's row. -/
theorem mm_lhs_0 (i : S4096x384.Idx) (q : dot_S4096x128_S128x384_S4096x384_1_0_0_1_n_n.contr.Idx) :
    (dot_S4096x128_S128x384_S4096x384_1_0_0_1_n_n.lhsIdx i q 0).val = (i 0).val := by
  unfold DotDims.lhsIdx
  rw [dif_neg (show ¬(0 : Fin S4096x128.rank) ∈ dot_S4096x128_S128x384_S4096x384_1_0_0_1_n_n.lhsBatch by decide), dif_pos (show (0 : Fin S4096x128.rank) ∈ dot_S4096x128_S128x384_S4096x384_1_0_0_1_n_n.lhsNonContracting by decide)]
  rfl
/-- The left operand's column is the contraction coordinate. -/
theorem mm_lhs_1 (i : S4096x384.Idx) (q : dot_S4096x128_S128x384_S4096x384_1_0_0_1_n_n.contr.Idx) :
    (dot_S4096x128_S128x384_S4096x384_1_0_0_1_n_n.lhsIdx i q 1).val = (q ⟨0, by decide⟩).val :=
  dot_S4096x128_S128x384_S4096x384_1_0_0_1_n_n.lhsIdx_val_of_single rfl i q
/-- The right operand's row is the contraction coordinate. -/
theorem mm_rhs_0 (i : S4096x384.Idx) (q : dot_S4096x128_S128x384_S4096x384_1_0_0_1_n_n.contr.Idx) :
    (dot_S4096x128_S128x384_S4096x384_1_0_0_1_n_n.rhsIdx i q 0).val = (q ⟨0, by decide⟩).val :=
  dot_S4096x128_S128x384_S4096x384_1_0_0_1_n_n.rhsIdx_val_of_single rfl i q
/-- Output axis 1 of the product is the right operand's column. -/
theorem mm_rhs_1 (i : S4096x384.Idx) (q : dot_S4096x128_S128x384_S4096x384_1_0_0_1_n_n.contr.Idx) :
    (dot_S4096x128_S128x384_S4096x384_1_0_0_1_n_n.rhsIdx i q 1).val = (i 1).val := by
  unfold DotDims.rhsIdx
  rw [dif_neg (show ¬(1 : Fin S128x384.rank) ∈ dot_S4096x128_S128x384_S4096x384_1_0_0_1_n_n.rhsBatch by decide), dif_pos (show (1 : Fin S128x384.rank) ∈ dot_S4096x128_S128x384_S4096x384_1_0_0_1_n_n.rhsNonContracting by decide)]
  rfl

/-- A [4096,128] × [128,384] product into the zero accumulator is, at entry (n, j), the sum over the 128 shared
    coordinates of the products of row n and column j. -/
theorem mm_apply (a : FVec Ideal S4096x128 .bf16) (b : FVec Ideal S128x384 .bf16) (n : Fin 4096) (j : Fin 384) :
    matmul dot_S4096x128_S128x384_S4096x384_1_0_0_1_n_n none a b (constant (F := Ideal) S4096x384 .f32 0x00000000#32) (ix2 n j)
      = ∑ k : Fin 128, a (ix2 n k) * b (ix2 k j) := by
  refine (Ideal.matmul_constant_zero_apply dot_S4096x128_S128x384_S4096x384_1_0_0_1_n_n none a b (ix2 n j)).trans ?_
  rw [← Equiv.sum_comp (ValueIdx.contrEquiv1 dot_S4096x128_S128x384_S4096x384_1_0_0_1_n_n 128 rfl rfl).symm]
  refine Finset.sum_congr rfl fun k _ => ?_
  have hk := ValueIdx.contrEquiv1_symm_val dot_S4096x128_S128x384_S4096x384_1_0_0_1_n_n 128 rfl rfl k
  have el : dot_S4096x128_S128x384_S4096x384_1_0_0_1_n_n.lhsIdx (ix2 n j) ((ValueIdx.contrEquiv1 dot_S4096x128_S128x384_S4096x384_1_0_0_1_n_n 128 rfl rfl).symm k) = ix2 n k := funext fun a => Fin.ext (by
    match a with
    | ⟨0, _⟩ => exact mm_lhs_0 _ _
    | ⟨1, _⟩ => exact (mm_lhs_1 _ _).trans hk)
  have er : dot_S4096x128_S128x384_S4096x384_1_0_0_1_n_n.rhsIdx (ix2 n j) ((ValueIdx.contrEquiv1 dot_S4096x128_S128x384_S4096x384_1_0_0_1_n_n 128 rfl rfl).symm k) = ix2 k j := funext fun a => Fin.ext (by
    match a with
    | ⟨0, _⟩ => exact (mm_rhs_0 _ _).trans hk
    | ⟨1, _⟩ => exact mm_rhs_1 _ _)
  rw [el, er]

/-- The state block with its unit axis dropped. -/
theorem pay4_apply (v26 : Vec Ideal S1x4096x128 .f32) (n : Fin 4096) (d : Fin 128) :
    k0_pay4 v26 (ix2 n d) = v26 (ix3 (0 : Fin 1) n d) := by
  unfold k0_pay4
  exact shapeCast_1ab_ab_apply v26 shapeCasts_S1x4096x128_S4096x128 n d

/-- A bias row cast to a plain vector and back, then laid along every atom, reads the row's own entry. -/
theorem biasRow_apply (v : Vec Ideal S1x384 .f32) (n : Fin 4096) (j : Fin 384) :
    broadcastTo S4096x384 (shapeCast S1x384 (shapeCast S384 v shapeCasts_S1x384_S384) shapeCasts_S384_S1x384)
      broadcasts_S1x384_S4096x384 (ix2 n j) = v (ix2 (0 : Fin 1) j) := by
  refine (broadcastTo_1b_ab_apply _ broadcasts_S1x384_S4096x384 n j).trans ?_
  rw [shapeCast_shapeCast]

/-! ## The three-pass product -/

/-- The three-pass product `a·b + a·(b − b) + (a − a)·b` of two real matrices, at entry (n, j), is the plain sum. -/
theorem split_mm (a : FVec Ideal S4096x128 .f32) (b : FVec Ideal S128x384 .f32)
    (ha : ∀ y, ∃ r : ℝ, a y = r) (hb : ∀ y, ∃ r : ℝ, b y = r) (n : Fin 4096) (j : Fin 384) :
    addf (addf
        (matmul dot_S4096x128_S128x384_S4096x384_1_0_0_1_n_n none (truncf .bf16 a bitsLt_bf16_f32) (truncf .bf16 b bitsLt_bf16_f32)
          (constant (F := Ideal) S4096x384 .f32 0x00000000#32))
        (matmul dot_S4096x128_S128x384_S4096x384_1_0_0_1_n_n none (truncf .bf16 a bitsLt_bf16_f32) (truncf .bf16 (subf b b) bitsLt_bf16_f32)
          (constant (F := Ideal) S4096x384 .f32 0x00000000#32)))
        (matmul dot_S4096x128_S128x384_S4096x384_1_0_0_1_n_n none (truncf .bf16 (subf a a) bitsLt_bf16_f32) (truncf .bf16 b bitsLt_bf16_f32)
          (constant (F := Ideal) S4096x384 .f32 0x00000000#32)) (ix2 n j)
      = ∑ k : Fin 128, a (ix2 n k) * b (ix2 k j) := by
  rw [addf_apply, addf_apply, mm_apply, mm_apply, mm_apply]
  exact Cert.GruSpec.split_dot (fun k => a (ix2 n k)) (fun k => b (ix2 k j)) (fun k => ha _) (fun k => hb _)

/-- The input projection: the transposed accumulator times the kernel matrix plus the first bias row; the
    three-pass product is the plain one because the accumulator and the matrix hold real numbers. -/
theorem pay5_apply (v24 : Vec Ideal S128x4096 .f32) (v28 : Vec Ideal S128x384 .f32) (v42 : Vec Ideal S1x384 .f32)
    (h24 : ∀ y, ∃ r : ℝ, v24 y = r) (h28 : ∀ y, ∃ r : ℝ, v28 y = r) (n : Fin 4096) (j : Fin 384) :
    k0_pay5 v24 v28 v42 (ix2 n j)
      = (∑ k : Fin 128, v24 (ix2 k n) * v28 (ix2 k j)) + v42 (ix2 (0 : Fin 1) j) := by
  unfold k0_pay5
  refine (addf_apply _ _ _).trans ?_
  refine congrArg₂ (· + ·) ?_ (biasRow_apply v42 n j)
  have hT : ∀ (p : Fin 4096) (q : Fin 128),
      transpose S4096x128 [1, 0] v24 transposes_S128x4096_p1_0_S4096x128 (ix2 p q) = v24 (ix2 q p) :=
    fun p q => transpose_ix2_apply v24 transposes_S128x4096_p1_0_S4096x128 p q
  refine (split_mm (transpose S4096x128 [1, 0] v24 transposes_S128x4096_p1_0_S4096x128) v28 (fun y => ?_) h28 n j).trans ?_
  · obtain ⟨p, q, rfl⟩ : ∃ (p : Fin 4096) (q : Fin 128), y = ix2 p q := ⟨y 0, y 1, eq_ix2 y⟩
    rw [hT]; exact h24 _
  · exact Finset.sum_congr rfl fun k _ => by rw [hT]

/-- The recurrent projection, without its bias: the state block times the recurrent matrix. -/
theorem pay6_apply (v26 : Vec Ideal S1x4096x128 .f32) (v47 : Vec Ideal S128x384 .f32)
    (h26 : ∀ y, ∃ r : ℝ, v26 y = r) (h47 : ∀ y, ∃ r : ℝ, v47 y = r) (n : Fin 4096) (j : Fin 384) :
    k0_pay6 v26 v47 (ix2 n j) = ∑ k : Fin 128, v26 (ix3 (0 : Fin 1) n k) * v47 (ix2 k j) := by
  unfold k0_pay6
  refine (split_mm (k0_pay4 v26) v47 (fun y => ?_) h47 n j).trans ?_
  · obtain ⟨p, q, rfl⟩ : ∃ (p : Fin 4096) (q : Fin 128), y = ix2 p q := ⟨y 0, y 1, eq_ix2 y⟩
    rw [pay4_apply]; exact h26 _
  · exact Finset.sum_congr rfl fun k _ => by rw [pay4_apply]

/-- The second bias row laid along every atom. -/
theorem pay7_apply (v61 : Vec Ideal S1x384 .f32) (n : Fin 4096) (j : Fin 384) :
    k0_pay7 v61 (ix2 n j) = v61 (ix2 (0 : Fin 1) j) := by
  unfold k0_pay7
  exact biasRow_apply v61 n j

/-! ## The gates -/

/-- Gate group `g` of a 384-wide row: the 128-wide column slice at offset `128·g`. -/
theorem gate0_apply (x : FVec Ideal S4096x384 .f32) (n : Fin 4096) (d : Fin 128) :
    extractStridedSlice S4096x128 ![0, 0] x slices_S4096x384_o0_0_S4096x128 (ix2 n d) = x (ix2 n (Cert.GruSpec.col 0 d)) :=
  slice2_axis1_apply 0 x slices_S4096x384_o0_0_S4096x128 n d (Cert.GruSpec.col 0 d)
    (by show 128 * 0 + d.val = 0 + d.val; omega)
theorem gate1_apply (x : FVec Ideal S4096x384 .f32) (n : Fin 4096) (d : Fin 128) :
    extractStridedSlice S4096x128 ![0, 128] x slices_S4096x384_o0_128_S4096x128 (ix2 n d) = x (ix2 n (Cert.GruSpec.col 1 d)) :=
  slice2_axis1_apply 128 x slices_S4096x384_o0_128_S4096x128 n d (Cert.GruSpec.col 1 d)
    (by show 128 * 1 + d.val = 128 + d.val; omega)
theorem gate2_apply (x : FVec Ideal S4096x384 .f32) (n : Fin 4096) (d : Fin 128) :
    extractStridedSlice S4096x128 ![0, 256] x slices_S4096x384_o0_256_S4096x128 (ix2 n d) = x (ix2 n (Cert.GruSpec.col 2 d)) :=
  slice2_axis1_apply 256 x slices_S4096x384_o0_256_S4096x128 n d (Cert.GruSpec.col 2 d)
    (by show 128 * 2 + d.val = 256 + d.val; omega)

/-- The gate arithmetic is the GRU cell on the three gate columns of the two projections. -/
theorem pay3_apply (v27 : FVec Ideal S4096x128 .f32) (v46 v60 v64 : FVec Ideal S4096x384 .f32) (n : Fin 4096) (d : Fin 128) :
    k0_pay3 v27 v46 v60 v64 (ix3 (0 : Fin 1) n d)
      = Cert.GruSpec.cell (v46 (ix2 n (Cert.GruSpec.col 0 d))) (v46 (ix2 n (Cert.GruSpec.col 1 d))) (v46 (ix2 n (Cert.GruSpec.col 2 d)))
          (v60 (ix2 n (Cert.GruSpec.col 0 d)) + v64 (ix2 n (Cert.GruSpec.col 0 d)))
          (v60 (ix2 n (Cert.GruSpec.col 1 d)) + v64 (ix2 n (Cert.GruSpec.col 1 d)))
          (v60 (ix2 n (Cert.GruSpec.col 2 d)) + v64 (ix2 n (Cert.GruSpec.col 2 d)))
          (v27 (ix2 n d)) := by
  unfold k0_pay3
  refine (shapeCast_ab_1ab_apply _ shapeCasts_S4096x128_S1x4096x128 (0 : Fin 1) n d).trans ?_
  unfold Cert.GruSpec.cell
  rw [← gate0_apply v46 n d, ← gate1_apply v46 n d, ← gate2_apply v46 n d,
    ← addf_apply v60 v64, ← addf_apply v60 v64, ← addf_apply v60 v64,
    ← gate0_apply (addf v60 v64) n d, ← gate1_apply (addf v60 v64) n d, ← gate2_apply (addf v60 v64) n d]
  rfl

end Cert.KernelIdeal.Pay

end
-- ==== Proof.KPieces.lean ====
/-
  What one run of the kernel body leaves behind, as the body's pure arithmetic.

  The accumulator (a [128, 4096] scratch the kernel keeps between grid points) ends every point holding its update
  `k0_pay2` of the point's target-index and message blocks over what it held before; at a molecule's first tile
  "what it held before" is the reset value `k0_pay1`. At a molecule's last tile the result buffer ends holding the
  gate arithmetic `k0_pay3` of the state block, the two projections and the second bias row, the first projection
  taken of the accumulator as that very point has just updated it.
-/
import proofs.«406996_j88579405512822_3_alg».proof.Proof.Gen.KernelIdeal.Frame
import Idealize.ShloMosaic.Lib.Pipeline.Value
import Idealize.ShloMosaic.Lib.ValueIdx

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S1x1024x128 .f32) (harg2 : arg2.IsWhole) (arg3 : Memref sig .tc .vmem S1x1024x1 .i32) (harg3 : arg3.IsWhole)
  (arg4 : Memref sig .tc .vmem S1x4096x128 .f32) (harg4 : arg4.IsWhole) (arg5 : Memref sig .tc .vmem S128x384 .f32) (harg5 : arg5.IsWhole)
  (arg6 : Memref sig .tc .vmem S128x384 .f32) (harg6 : arg6.IsWhole) (arg7 : Memref sig .tc .vmem S2x384 .f32) (harg7 : arg7.IsWhole)
  (arg8 : Memref sig .tc .vmem S1x4096x128 .f32) (harg8 : arg8.IsWhole) (arg9 : Memref sig .tc .vmem S128x4096 .f32) (harg9 : arg9.IsWhole)
  (x0 : Vec F S1x1024x128 .f32) (x1 : Vec F S1x1024x1 .i32) (x2 : Vec F S1x4096x128 .f32) (x3 : Vec F S128x384 .f32)
  (x4 : Vec F S128x384 .f32) (x5 : Vec F S2x384 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator update over what the point before left. -/
theorem sout0_B_0_eq (hc0 : ¬cond0_0 i) (hc1 : ¬cond0_1 i) (xs0 : Vec F S128x4096 .f32) :
    sout0_B_0 c i arg2 harg2 arg3 harg3 arg4 harg4 arg5 harg5 arg6 harg6 arg7 harg7 arg8 harg8 arg9 harg9 hc0 hc1 x0 x1 x2 x3 x4 x5 xs0
      = k0_pay2 x1 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  simp only [View.readAt_eq_ld, harg2.read_unread, harg3.read_unread, harg9.read_unread,
    View.ld_unit_zero (S := S128x4096) hz2, View.ld_unit_zero (S := S1x1024x1) hz3, View.ld_unit_zero (S := S1x1024x128) hz3]

/-- A molecule's first tile: the accumulator update over the reset value (the reset is stored, then read back). -/
theorem sout0_A_0_eq (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 x5
      = k0_pay2 x1 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S128x4096) hz2, View.readCov_unit_zero (S := S128x4096) _ hz2]
  simp only [View.readAt_eq_ld, harg2.read_unread, harg3.read_unread,
    View.ld_unit_zero (S := S1x1024x1) hz3, View.ld_unit_zero (S := S1x1024x128) hz3]

/-- A molecule's last tile updates the accumulator like every other tile after the first. -/
theorem sout0_C_0_eq (hc0 : ¬cond0_0 i) (hc1 : cond0_1 i) (xs0 : Vec F S128x4096 .f32) :
    sout0_C_0 c i arg2 harg2 arg3 harg3 arg4 harg4 arg5 harg5 arg6 harg6 arg7 harg7 arg8 harg8 arg9 harg9 hc0 hc1 x0 x1 x2 x3 x4 x5 xs0
      = k0_pay2 x1 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg9.read_unread,
    View.ld_unit_zero (S := S128x4096) hz2, View.ld_unit_zero (S := S1x1024x1) hz3, View.ld_unit_zero (S := S1x1024x128) hz3]

/-- Row 0 of the bias block, as the body loads it: a [1, 384] row. -/
def biasRow0 (x5 : Vec F S2x384 .f32) : Vec F S1x384 .f32 :=
  View.ld x5 (Rect.unit (s := S2x384) ![0, 0] S1x384.size inb_S2x384_S1x384_0_0)

/-- Row 1 of the bias block, as the body loads it. -/
def biasRow1 (x5 : Vec F S2x384 .f32) : Vec F S1x384 .f32 :=
  View.ld x5 (Rect.unit (s := S2x384) ![1, 0] S1x384.size inb_S2x384_S1x384_1_0)

/-- At a molecule's last tile the result buffer ends at the gate arithmetic of the state block, the projection of
    the accumulator as this point's update leaves it, the recurrent projection, and the second bias row. -/
theorem out0_C_6_eq (hc0 : ¬cond0_0 i) (hc1 : cond0_1 i) (xs0 : Vec F S128x4096 .f32) :
    out0_C_6 c i arg2 harg2 arg3 harg3 arg4 harg4 arg5 harg5 arg6 harg6 arg7 harg7 arg8 harg8 arg9 harg9 hc0 hc1 x0 x1 x2 x3 x4 x5 xs0
      = k0_pay3 (k0_pay4 x2) (k0_pay5 (k0_pay2 x1 x0 xs0) x3 (biasRow0 x5)) (k0_pay6 x2 x4) (k0_pay7 (biasRow1 x5)) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz3, View.readCov_unit_zero (S := S128x4096) _ hz2]
  simp only [View.readAt_eq_ld, harg2.read_unread, harg3.read_unread, harg4.read_unread, harg5.read_unread, harg6.read_unread,
    harg7.read_unread, harg9.read_unread,
    View.ld_unit_zero (S := S128x4096) hz2, View.ld_unit_zero (S := S1x1024x1) hz3, View.ld_unit_zero (S := S1x1024x128) hz3,
    View.ld_unit_zero (S := S1x4096x128) hz3, View.ld_unit_zero (S := S128x384) hz2]
  rfl

open Idealize.ShloMosaic.ValueIdx in
theorem biasRow0_apply (x5 : Vec F S2x384 .f32) (j : Fin 384) : biasRow0 x5 (ix2 (0 : Fin 1) j) = x5 (ix2 (0 : Fin 2) j) := by
  unfold biasRow0
  show x5 _ = x5 _
  congr 1
  funext a
  apply Fin.ext
  match a with
  | ⟨0, _⟩ => rfl
  | ⟨1, _⟩ => show 0 + 1 * j.val = j.val; omega

open Idealize.ShloMosaic.ValueIdx in
theorem biasRow1_apply (x5 : Vec F S2x384 .f32) (j : Fin 384) : biasRow1 x5 (ix2 (0 : Fin 1) j) = x5 (ix2 (1 : Fin 2) j) := by
  unfold biasRow1
  show x5 _ = x5 _
  congr 1
  funext a
  apply Fin.ext
  match a with
  | ⟨0, _⟩ => rfl
  | ⟨1, _⟩ => show 0 + 1 * j.val = j.val; omega

end Cert.KernelIdeal.Pieces

end
-- ==== Proof.KValue.lean ====
/-
  What the kernel leaves in its result array: the layer's specification.

  The accumulator after point `t` of molecule `b = t / 8` holds, at (feature k, atom n), the messages of the
  molecule's tiles `0 … t % 8` whose edge points at `n`: each point adds its own tile's share to what the point
  before left, and the molecule's first tile starts from zero. After the last tile that is the whole segment sum
  `agg b n k`. The same point then forms the two projections — plain dot products, because the accumulator and the
  weights hold real numbers — and stores the GRU cell of every (atom, feature) of the molecule; that block is what
  the pipeline writes back, and the 32 molecules' blocks tile the result array.
-/
import proofs.«406996_j88579405512822_3_alg».proof.Proof.Gen.KernelIdeal.Value
import proofs.«406996_j88579405512822_3_alg».proof.Proof.GruSpec
import proofs.«406996_j88579405512822_3_alg».proof.Proof.KBlocks
import proofs.«406996_j88579405512822_3_alg».proof.Proof.KPayAgg
import proofs.«406996_j88579405512822_3_alg».proof.Proof.KPayGru
import proofs.«406996_j88579405512822_3_alg».proof.Proof.KPieces
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Value Cert.KernelIdeal.Blocks Cert.KernelIdeal.Pay Cert.KernelIdeal.Pieces
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The accumulator -/

/-- The share point `s` adds to the accumulator at (feature, atom): its tile's messages whose edge points at the
    atom. (Past the grid: zero, never used.) -/
def addend (c : Dev nD) (s : ℕ) (i : S128x4096.Idx) : EReal :=
  if h : s < cfg0.N then
    ∑ e : Fin 1024, if tgtBlk m c ⟨s, h⟩ (ix3 (0 : Fin 1) e (0 : Fin 1)) = BitVec.ofNat 32 (i 1).val
      then msgBlk m c ⟨s, h⟩ (ix3 (0 : Fin 1) e (⟨(i 0).val, (i 0).isLt⟩ : Fin 128)) else 0
  else 0

theorem addend_apply (c : Dev nD) (t : Fin cfg0.N) (k : Fin 128) (n : Fin 4096) :
    addend m c t.val (ix2 k n)
      = ∑ e : Fin 1024, if tgtBlk m c t (ix3 (0 : Fin 1) e (0 : Fin 1)) = BitVec.ofNat 32 n.val
          then msgBlk m c t (ix3 (0 : Fin 1) e k) else 0 := by
  unfold addend
  rw [dif_pos t.isLt]

/-- A molecule's first tile leaves the accumulator at its own share (the reset value is zero). -/
theorem scAt_first (c : Dev nD) (b : ℕ) (hb0 : b % 8 = 0) (h : b < cfg0.N) (acc : Vec Ideal S128x4096 .f32) (i : S128x4096.Idx) :
    scAt0_0 m c b h acc i = 0 + addend m c b i := by
  obtain ⟨k, n, rfl⟩ : ∃ (k : Fin 128) (n : Fin 4096), i = ix2 k n := ⟨i 0, i 1, eq_ix2 i⟩
  have h7 : ¬ b % 8 = 7 := by omega
  unfold scAt0_0
  rw [dif_pos hb0, dif_neg h7]
  refine (congrFun (sout0_A_0_eq (F := Ideal) c (grid0.coords ⟨b, h⟩) (ms0_0 ⟨b, h⟩) (hs0_0 ⟨b, h⟩) (ms0_1 ⟨b, h⟩) (hs0_1 ⟨b, h⟩)
    (ms0_2 ⟨b, h⟩) (hs0_2 ⟨b, h⟩) (ms0_3 ⟨b, h⟩) (hs0_3 ⟨b, h⟩) (ms0_4 ⟨b, h⟩) (hs0_4 ⟨b, h⟩) (ms0_5 ⟨b, h⟩) (hs0_5 ⟨b, h⟩)
    (ms0_6 ⟨b, h⟩) (hs0_6 ⟨b, h⟩) scM0_0 (Memref.isWhole_whole _)
    (msgBlk m c ⟨b, h⟩) (tgtBlk m c ⟨b, h⟩) (atomBlk m c ⟨b, h⟩) (kBlk m c ⟨b, h⟩) (rkBlk m c ⟨b, h⟩) (biasBlk m c ⟨b, h⟩)
    ((hcond0_0 ⟨b, h⟩).mpr hb0) (fun hh => h7 ((hcond0_1 ⟨b, h⟩).mp hh))) (ix2 k n)).trans ?_
  rw [pay2_apply, pay1_apply, addend_apply m c ⟨b, h⟩ k n]

/-- Every later tile adds its share to what the point before left. -/
theorem scAt_step (c : Dev nD) (s : ℕ) (hs0 : ¬ s % 8 = 0) (h : s < cfg0.N) (acc : Vec Ideal S128x4096 .f32) (i : S128x4096.Idx) :
    scAt0_0 m c s h acc i = acc i + addend m c s i := by
  obtain ⟨k, n, rfl⟩ : ∃ (k : Fin 128) (n : Fin 4096), i = ix2 k n := ⟨i 0, i 1, eq_ix2 i⟩
  unfold scAt0_0
  rw [dif_neg hs0]
  by_cases h7 : s % 8 = 7
  · rw [dif_pos h7]
    refine (congrFun (sout0_C_0_eq (F := Ideal) c (grid0.coords ⟨s, h⟩) (ms0_0 ⟨s, h⟩) (hs0_0 ⟨s, h⟩) (ms0_1 ⟨s, h⟩) (hs0_1 ⟨s, h⟩)
      (ms0_2 ⟨s, h⟩) (hs0_2 ⟨s, h⟩) (ms0_3 ⟨s, h⟩) (hs0_3 ⟨s, h⟩) (ms0_4 ⟨s, h⟩) (hs0_4 ⟨s, h⟩) (ms0_5 ⟨s, h⟩) (hs0_5 ⟨s, h⟩)
      (ms0_6 ⟨s, h⟩) (hs0_6 ⟨s, h⟩) scM0_0 (Memref.isWhole_whole _)
      (msgBlk m c ⟨s, h⟩) (tgtBlk m c ⟨s, h⟩) (atomBlk m c ⟨s, h⟩) (kBlk m c ⟨s, h⟩) (rkBlk m c ⟨s, h⟩) (biasBlk m c ⟨s, h⟩)
      (fun hh => hs0 ((hcond0_0 ⟨s, h⟩).mp hh)) ((hcond0_1 ⟨s, h⟩).mpr h7) acc) (ix2 k n)).trans ?_
    rw [pay2_apply, addend_apply m c ⟨s, h⟩ k n]
  · rw [dif_neg h7]
    refine (congrFun (sout0_B_0_eq (F := Ideal) c (grid0.coords ⟨s, h⟩) (ms0_0 ⟨s, h⟩) (hs0_0 ⟨s, h⟩) (ms0_1 ⟨s, h⟩) (hs0_1 ⟨s, h⟩)
      (ms0_2 ⟨s, h⟩) (hs0_2 ⟨s, h⟩) (ms0_3 ⟨s, h⟩) (hs0_3 ⟨s, h⟩) (ms0_4 ⟨s, h⟩) (hs0_4 ⟨s, h⟩) (ms0_5 ⟨s, h⟩) (hs0_5 ⟨s, h⟩)
      (ms0_6 ⟨s, h⟩) (hs0_6 ⟨s, h⟩) scM0_0 (Memref.isWhole_whole _)
      (msgBlk m c ⟨s, h⟩) (tgtBlk m c ⟨s, h⟩) (atomBlk m c ⟨s, h⟩) (kBlk m c ⟨s, h⟩) (rkBlk m c ⟨s, h⟩) (biasBlk m c ⟨s, h⟩)
      (fun hh => hs0 ((hcond0_0 ⟨s, h⟩).mp hh)) (fun hh => h7 ((hcond0_1 ⟨s, h⟩).mp hh)) acc) (ix2 k n)).trans ?_
    rw [pay2_apply, addend_apply m c ⟨s, h⟩ k n]

/-- The accumulator after point `t`: the shares of the molecule's tiles `0 … t % 8`. -/
theorem acc_apply (c : Dev nD) (t : Fin cfg0.N) (i : S128x4096.Idx) :
    (outsAt0 m c t.val t.isLt).2 i
      = 0 + ∑ s ∈ Finset.range (t.val % 8 + 1), addend m c (8 * (t.val / 8) + s) i := by
  rw [soutsAt0_0_eq]
  exact Pipeline.accAt_add_apply _ _ (fun _ => 0) (addend m c) (8 * (t.val / 8)) 7
    (fun h i => scAt_first m c _ (by omega) h _ i)
    (fun s h acc i hlt hle => scAt_step m c s (by omega) h acc i)
    (t.val % 8) (by omega) _ i

/-- Eight tiles of 1024 edges are the molecule's 8192 edges. -/
theorem sum_tiles (f : Fin 8192 → EReal) :
    ∑ s : Fin 8, ∑ e : Fin 1024, f ⟨1024 * s.val + e.val, by have := s.isLt; have := e.isLt; omega⟩ = ∑ E : Fin 8192, f E := by
  rw [← Fintype.sum_prod_type' (f := fun (s : Fin 8) (e : Fin 1024) => f ⟨1024 * s.val + e.val, by have := s.isLt; have := e.isLt; omega⟩)]
  refine Fintype.sum_equiv (finProdFinEquiv (m := 8) (n := 1024)) _ _ fun x => ?_
  obtain ⟨s, e⟩ := x
  refine congrArg f (Fin.ext ?_)
  show 1024 * s.val + e.val = e.val + 1024 * s.val
  omega

/-- The shares of a molecule's eight tiles add up to its segment sum. -/
theorem sum_addend (c : Dev nD) (q : Fin 32) (k : Fin 128) (n : Fin 4096) :
    ∑ s ∈ Finset.range 8, addend m c (8 * q.val + s) (ix2 k n)
      = Cert.GruSpec.agg (msgArr m c) (connArr m c) q n k := by
  have hN : cfg0.N = 256 := N_0
  rw [Finset.sum_range, Cert.GruSpec.agg, ← sum_tiles]
  refine Finset.sum_congr rfl fun s _ => ?_
  have hlt : 8 * q.val + s.val < cfg0.N := by have := q.isLt; have := s.isLt; omega
  rw [addend_apply m c ⟨8 * q.val + s.val, hlt⟩ k n]
  refine Finset.sum_congr rfl fun e _ => ?_
  have hq : molOf ⟨8 * q.val + s.val, hlt⟩ = q := Fin.ext (by show (8 * q.val + s.val) / 8 = q.val; have := s.isLt; omega)
  have he : edgeOf ⟨8 * q.val + s.val, hlt⟩ e = ⟨1024 * s.val + e.val, by have := s.isLt; have := e.isLt; omega⟩ :=
    Fin.ext (by show 1024 * ((8 * q.val + s.val) % 8) + e.val = 1024 * s.val + e.val; have := s.isLt; omega)
  rw [tgtBlk_apply, msgBlk_apply, hq, he]

/-- After a molecule's last tile the accumulator holds the molecule's segment sum. -/
theorem accFinal_apply (c : Dev nD) (t : Fin cfg0.N) (h7 : t.val % 8 = 7) (k : Fin 128) (n : Fin 4096) :
    (outsAt0 m c t.val t.isLt).2 (ix2 k n) = Cert.GruSpec.agg (msgArr m c) (connArr m c) (molOf t) n k := by
  rw [acc_apply, zero_add, h7]
  exact sum_addend m c (molOf t) k n

/-! ## The result block -/

section Real

variable (hAtom : ∀ c i, ∃ r : ℝ, atomArr m c i = r) (hMsg : ∀ c i, ∃ r : ℝ, msgArr m c i = r)
  (hK : ∀ c i, ∃ r : ℝ, kArr m c i = r) (hRK : ∀ c i, ∃ r : ℝ, rkArr m c i = r)

include hMsg in
/-- The accumulator only ever holds real numbers: finite sums of real messages. -/
theorem acc_real (c : Dev nD) (t : Fin cfg0.N) (y : S128x4096.Idx) : ∃ r : ℝ, (outsAt0 m c t.val t.isLt).2 y = r := by
  obtain ⟨k, n, rfl⟩ : ∃ (k : Fin 128) (n : Fin 4096), y = ix2 k n := ⟨y 0, y 1, eq_ix2 y⟩
  rw [acc_apply, zero_add]
  refine Cert.GruSpec.sum_real _ _ fun s _ => ?_
  unfold addend
  split
  · refine Cert.GruSpec.sum_real _ _ fun e _ => ?_
    split
    · rw [msgBlk_apply]; exact hMsg c _
    · exact ⟨0, by simp⟩
  · exact ⟨0, by simp⟩

include hAtom hMsg hK hRK in
/-- What a molecule's last tile leaves in the result buffer: the layer's result for that molecule. -/
theorem outC_apply (c : Dev nD) (t : Fin cfg0.N) (h0 : ¬ t.val % 8 = 0) (h7 : t.val % 8 = 7) (n : Fin 4096) (d : Fin 128) :
    (outsAt0 m c t.val t.isLt).1 (ix3 (0 : Fin 1) n d)
      = Cert.GruSpec.out (atomArr m c) (msgArr m c) (connArr m c) (kArr m c) (rkArr m c) (biasArr m c) (molOf t) n d := by
  have hacc : k0_pay2 (tgtBlk m c t) (msgBlk m c t) (outsAt0 m c (t.val - 1) (Nat.lt_of_le_of_lt (Nat.sub_le _ _) t.isLt)).2
      = (outsAt0 m c t.val t.isLt).2 := by
    rw [outsAt0_C m c t h0 h7]
    dsimp only
    exact (sout0_C_0_eq (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (msgBlk m c t) (tgtBlk m c t) (atomBlk m c t) (kBlk m c t) (rkBlk m c t) (biasBlk m c t)
      (fun hh => h0 ((hcond0_0 t).mp hh)) ((hcond0_1 t).mpr h7) _).symm
  have hout : (outsAt0 m c t.val t.isLt).1
      = k0_pay3 (k0_pay4 (atomBlk m c t)) (k0_pay5 (outsAt0 m c t.val t.isLt).2 (kBlk m c t) (biasRow0 (biasBlk m c t)))
          (k0_pay6 (atomBlk m c t) (rkBlk m c t)) (k0_pay7 (biasRow1 (biasBlk m c t))) := by
    rw [← hacc, outsAt0_C m c t h0 h7]
    dsimp only
    exact out0_C_6_eq (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (msgBlk m c t) (tgtBlk m c t) (atomBlk m c t) (kBlk m c t) (rkBlk m c t) (biasBlk m c t)
      (fun hh => h0 ((hcond0_0 t).mp hh)) ((hcond0_1 t).mpr h7) _
  have hatomBlk : ∀ y, ∃ r : ℝ, atomBlk m c t y = r := fun y => by
    obtain ⟨z, p, q, rfl⟩ : ∃ (z : Fin 1) (p : Fin 4096) (q : Fin 128), y = ix3 z p q := ⟨y 0, y 1, y 2, eq_ix3 y⟩
    obtain rfl : z = 0 := Subsingleton.elim _ _
    rw [atomBlk_apply]; exact hAtom c _
  have hkBlk : ∀ y, ∃ r : ℝ, kBlk m c t y = r := fun y => by rw [kBlk_eq]; exact hK c y
  have hrkBlk : ∀ y, ∃ r : ℝ, rkBlk m c t y = r := fun y => by rw [rkBlk_eq]; exact hRK c y
  rw [hout, pay3_apply, pay4_apply,
    pay5_apply _ _ _ (acc_real m hMsg c t) hkBlk, pay5_apply _ _ _ (acc_real m hMsg c t) hkBlk, pay5_apply _ _ _ (acc_real m hMsg c t) hkBlk,
    pay6_apply _ _ hatomBlk hrkBlk, pay6_apply _ _ hatomBlk hrkBlk, pay6_apply _ _ hatomBlk hrkBlk,
    pay7_apply, pay7_apply, pay7_apply]
  simp only [biasRow0_apply, biasRow1_apply, accFinal_apply m c t h7, atomBlk_apply, kBlk_eq, rkBlk_eq, biasBlk_eq]
  rfl

include hAtom hMsg hK hRK in
/-- What the pipeline writes back after a molecule's last tile is the molecule's block of the layer's result. -/
theorem flushed_eq (c : Dev nD) (t : Fin cfg0.N) (hf : (cfg0.win 6).flush t = true) :
    (dats m 0 c).flushed 6 t = ((cfg0.win 6).blk t).view.read (Elt Ideal)
      (Cert.GruSpec.G (atomArr m c) (msgArr m c) (connArr m c) (kArr m c) (rkArr m c) (biasArr m c)) := by
  have h7 : t.val % 8 = 7 := (flush6_iff t).mp hf
  rw [flushed6]
  exact cut6_eq_read t _ _ fun n d => outC_apply m hAtom hMsg hK hRK c t (by omega) h7 n d

include hAtom hMsg hK hRK in
/-- The result array after the run: the layer's specification. -/
theorem final (c : Dev nD) :
    (dats m 0 c).arrAt 6 cfg0.N
      = Cert.GruSpec.G (atomArr m c) (msgArr m c) (connArr m c) (kArr m c) (rkArr m c) (biasArr m c) :=
  (dats m 0 c).arrAt_eq_of_cover 6 _ (fun t hf => flushed_eq m hAtom hMsg hK hRK c t hf) cover6

include hAtom hMsg hK hRK in
/-- The kernel's run, its result array named as the layer's specification of the argument arrays. -/
theorem run : θ_run defs (onTc (τ := τ) (main (F := Ideal))) ⟨m, fun _ => 0, ρ⟩ fun r => ∀ c : Dev nD,
      r.2.mem ((c : Thread nD τ).loc main_v3)
          = Cert.GruSpec.G (atomArr m c) (msgArr m c) (connArr m c) (kArr m c) (rkArr m c) (biasArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hAtom hMsg hK hRK c), (h c).2⟩) (run_blocks m ρ)

end Real

end Cert.KernelIdeal.KValue

end
-- ==== Proof.RefScatter.lean ====
/-
  The reference's segment sum, read at one entry.

  The reference flattens (molecule, atom) to the row `4096·b + n`, shifts every target index by its molecule's
  offset `4096·b`, and scatter-adds the flattened messages into a zero array. With every target index inside
  `[0, 4096)` an edge of molecule `b'` lands in row `4096·b + n` exactly when `b' = b` and its index is `n`, so the
  row collects the messages of molecule `b`'s edges that point at atom `n`.
-/
import proofs.«406996_j88579405512822_3_alg».proof.Proof.Gen.ReferenceIdeal.Read
import proofs.«406996_j88579405512822_3_alg».proof.Proof.GruSpec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.RefScatter

open Cert.ReferenceIdeal Cert.ReferenceIdeal.Gen Cert.ReferenceIdeal.Read Idealize.ShloMosaic Idealize.ShloMosaic.TcCoe
open Idealize.ShloMosaic.ValueIdx

/-- Row `4096·b + n` of the flattened (molecule, atom) axis. -/
abbrev row (b : Fin 32) (n : Fin 4096) : Fin 131072 := ⟨4096 * b.val + n.val, by have := b.isLt; have := n.isLt; omega⟩

/-- The reference's scatter record. -/
abbrev dS := scatter_S131072x128_S262144x1_S262144x128_1_0_0_1

/-- The start index of update `j` is read at row `j 0` of the index column, whatever the component. -/
theorem siIdx_eq (j : S262144x128.Idx) (c : Fin dS.scatterDimsToOperandDims.length) :
    dS.siIdx j c = ix2 (j 0) (0 : Fin 1) := by
  funext b
  match b with
  | ⟨0, _⟩ => rfl
  | ⟨1, _⟩ => exact Fin.ext (by have := c.isLt; show c.val = 0; change c.val < 1 at this; omega)

/-- On the row axis the window starts at the signed index word. -/
theorem start0 {w : Nat} (j : S262144x128.Idx) (idx : IVec S262144x1 w) :
    dS.start j idx (0 : Fin 2) = (idx (ix2 (j 0) (0 : Fin 1))).toInt := by
  unfold ScatterDims.start
  rw [dif_pos (by decide), siIdx_eq]
  rfl

/-- On the feature axis the window starts at zero. -/
theorem start1 {w : Nat} (j : S262144x128.Idx) (idx : IVec S262144x1 w) :
    dS.start j idx (1 : Fin 2) = 0 := by
  unfold ScatterDims.start
  rw [dif_neg (by decide)]

/-- The row axis is an inserted axis: no window coordinate. -/
theorem window0 (j : S262144x128.Idx) : dS.window j (0 : Fin 2) = 0 := by
  unfold ScatterDims.window
  rw [dif_neg (by decide)]

/-- The feature axis carries the update's feature coordinate. -/
theorem window1 (j : S262144x128.Idx) : dS.window j (1 : Fin 2) = (j 1).val := by
  unfold ScatterDims.window
  rw [dif_pos (by decide)]
  rfl

/-- Update `j` lands at `i` exactly when its index word, read signed, is `i`'s row and the features agree. -/
theorem resultIdx_iff {w : Nat} (j : S262144x128.Idx) (idx : IVec S262144x1 w) (i : S131072x128.Idx) :
    dS.resultIdx? j idx = some i ↔
      (idx (ix2 (j 0) (0 : Fin 1))).toInt = ((i 0).val : Int) ∧ (j 1).val = (i 1).val := by
  have hs0 := start0 j idx
  have hs1 := start1 j idx
  have hw0 := window0 j
  have hw1 := window1 j
  have hi0 : (i 0).val < 131072 := (i 0).isLt
  have hi1 : (i 1).val < 128 := (i 1).isLt
  have hj1 : (j 1).val < 128 := (j 1).isLt
  unfold ScatterDims.resultIdx?
  split
  · rename_i h
    rw [Option.some.injEq]
    constructor
    · intro hf
      have e0 : (dS.start j idx (0 : Fin 2) + dS.window j (0 : Fin 2)).toNat = (i 0).val :=
        congrArg (fun f => (f 0).val) hf
      have e1 : (dS.start j idx (1 : Fin 2) + dS.window j (1 : Fin 2)).toNat = (i 1).val :=
        congrArg (fun f => (f 1).val) hf
      have h0 := (h (0 : Fin 2)).1
      rw [hs0, hw0] at e0 h0
      rw [hs1, hw1] at e1
      constructor <;> omega
    · rintro ⟨e0, e1⟩
      funext a
      match a with
      | ⟨0, _⟩ =>
        apply Fin.ext
        show (dS.start j idx (0 : Fin 2) + dS.window j (0 : Fin 2)).toNat = (i 0).val
        rw [hs0, hw0]; omega
      | ⟨1, _⟩ =>
        apply Fin.ext
        show (dS.start j idx (1 : Fin 2) + dS.window j (1 : Fin 2)).toNat = (i 1).val
        rw [hs1, hw1]; omega
  · rename_i h
    constructor
    · intro hf; cases hf
    · rintro ⟨e0, e1⟩
      exfalso; apply h
      intro a
      match a with
      | ⟨0, _⟩ =>
        show 0 ≤ dS.start j idx (0 : Fin 2) + dS.window j (0 : Fin 2)
          ∧ dS.start j idx (0 : Fin 2) + dS.window j (0 : Fin 2) < ((131072 : Nat) : Int)
        rw [hs0, hw0]; omega
      | ⟨1, _⟩ =>
        show 0 ≤ dS.start j idx (1 : Fin 2) + dS.window j (1 : Fin 2)
          ∧ dS.start j idx (1 : Fin 2) + dS.window j (1 : Fin 2) < ((128 : Nat) : Int)
        rw [hs1, hw1]; omega

/-- Row `8192·b' + e` of the flattened (molecule, edge) axis. -/
abbrev urow (b' : Fin 32) (e : Fin 8192) : Fin 262144 :=
  ⟨8192 * b'.val + e.val, by have := b'.isLt; have := e.isLt; omega⟩

/-- The flattened (molecule, edge) axis is the product of its two coordinate ranges. -/
def rowEquiv : Fin 32 × Fin 8192 ≃ Fin 262144 where
  toFun p := urow p.1 p.2
  invFun r := (⟨r.val / 8192, by have := r.isLt; omega⟩, ⟨r.val % 8192, by have := r.isLt; omega⟩)
  left_inv p := by
    have h1 := p.1.isLt
    have h2 := p.2.isLt
    apply Prod.ext
    · apply Fin.ext; show (8192 * p.1.val + p.2.val) / 8192 = p.1.val; omega
    · apply Fin.ext; show (8192 * p.1.val + p.2.val) % 8192 = p.2.val; omega
  right_inv r := by
    apply Fin.ext
    show 8192 * (r.val / 8192) + r.val % 8192 = r.val
    omega

/-- The index word of edge `e` of molecule `b'`: the edge's target plus the molecule's offset `4096·b'`. -/
theorem idx_apply (x2 : (⟨S32x8192x2, .i32⟩ : BufTy).Contents (Elt Ideal)) (b' : Fin 32) (e : Fin 8192) :
    val_main_v11 (F := Ideal) x2 (ix2 (urow b' e) (0 : Fin 1))
      = x2 (ix3 b' e (1 : Fin 2)) + BitVec.ofNat 32 b'.val * 4096#32 := by
  have hb := b'.isLt
  have he := e.isLt
  rw [val_main_v11_apply, val_main_v8_apply, val_main_v7_apply, val_main_v1_apply, val_main_v0_apply,
    val_main_v6_apply, val_main_v5_apply, val_main_v4_apply, val_main_v2_apply, val_main_v3_apply, val_main_c_apply]
  have e1 : idx_main_v0 (idx_main_v1 (idx_main_v8 (idx_main_v11 (ix2 (urow b' e) (0 : Fin 1)))))
      = ix3 b' e (1 : Fin 2) := by
    funext a
    match a with
    | ⟨0, _⟩ =>
      apply Fin.ext
      show ((8192 * b'.val + e.val) / 8192 * 8192 + (8192 * b'.val + e.val) % 8192) / 8192 = b'.val
      omega
    | ⟨1, _⟩ =>
      apply Fin.ext
      show ((8192 * b'.val + e.val) / 8192 * 8192 + (8192 * b'.val + e.val) % 8192) / 1 % 8192 = e.val
      omega
    | ⟨2, _⟩ => rfl
  have e2 : (idx_main_v5 (idx_main_v6 (idx_main_v8 (idx_main_v11 (ix2 (urow b' e) (0 : Fin 1))))) 0).val = b'.val := by
    show (8192 * b'.val + e.val) / 8192 = b'.val
    omega
  rw [e1, e2]
  rfl

/-- With the target below 4096 the shifted word does not wrap: read signed it is `4096·b' + tgt`. -/
theorem idx_toInt (x2 : (⟨S32x8192x2, .i32⟩ : BufTy).Contents (Elt Ideal))
    (hrange : ∀ (b : Fin 32) (e : Fin 8192), (x2 (ix3 b e (1 : Fin 2))).toNat < 4096) (b' : Fin 32) (e : Fin 8192) :
    (val_main_v11 (F := Ideal) x2 (ix2 (urow b' e) (0 : Fin 1))).toInt
      = ((4096 * b'.val + (x2 (ix3 b' e (1 : Fin 2))).toNat : Nat) : Int) := by
  have hb := b'.isLt
  have ht := hrange b' e
  rw [idx_apply]
  have hn : (x2 (ix3 b' e (1 : Fin 2)) + BitVec.ofNat 32 b'.val * 4096#32).toNat
      = 4096 * b'.val + (x2 (ix3 b' e (1 : Fin 2))).toNat := by
    simp only [BitVec.toNat_add, BitVec.toNat_mul, BitVec.toNat_ofNat]
    omega
  rw [StableHlo.Predicate.toInt_eq_toNat_of_lt (by rw [hn]; omega), hn]

/-- The flattened messages at row `8192·b' + e`. -/
theorem upd_apply (x1 : (⟨S32x8192x128, .f32⟩ : BufTy).Contents (Elt Ideal)) (b' : Fin 32) (e : Fin 8192) (q : Fin 128) :
    val_main_v9 (F := Ideal) x1 (ix2 (urow b' e) q) = x1 (ix3 b' e q) := by
  have hb := b'.isLt
  have he := e.isLt
  have hq := q.isLt
  rw [val_main_v9_apply]
  congr 1
  funext a
  match a with
  | ⟨0, _⟩ =>
    apply Fin.ext
    show ((8192 * b'.val + e.val) * 128 + q.val) / 1048576 = b'.val
    omega
  | ⟨1, _⟩ =>
    apply Fin.ext
    show ((8192 * b'.val + e.val) * 128 + q.val) / 128 % 8192 = e.val
    omega
  | ⟨2, _⟩ =>
    apply Fin.ext
    show ((8192 * b'.val + e.val) * 128 + q.val) % 128 = q.val
    omega

/-- Edge `e` of molecule `b'` at feature `q` lands on `(4096·b + n, k)` exactly when `b' = b`, the edge points at
    atom `n`, and `q = k`. -/
theorem lands_iff (x2 : (⟨S32x8192x2, .i32⟩ : BufTy).Contents (Elt Ideal))
    (hrange : ∀ (b : Fin 32) (e : Fin 8192), (x2 (ix3 b e (1 : Fin 2))).toNat < 4096)
    (b : Fin 32) (n : Fin 4096) (k : Fin 128) (b' : Fin 32) (e : Fin 8192) (q : Fin 128) :
    dS.resultIdx? (ix2 (urow b' e) q) (val_main_v11 (F := Ideal) x2) = some (ix2 (row b n) k) ↔
      (b' = b ∧ x2 (ix3 b' e (1 : Fin 2)) = BitVec.ofNat 32 n.val) ∧ q = k := by
  have hb := b.isLt
  have hb' := b'.isLt
  have hn := n.isLt
  have ht := hrange b' e
  rw [resultIdx_iff]
  show (val_main_v11 (F := Ideal) x2 (ix2 (urow b' e) (0 : Fin 1))).toInt = ((4096 * b.val + n.val : Nat) : Int)
      ∧ q.val = k.val ↔ _
  rw [idx_toInt x2 hrange b' e, Fin.ext_iff, Fin.ext_iff, ← BitVec.toNat_inj, BitVec.toNat_ofNat]
  constructor
  · rintro ⟨h1, h2⟩
    refine ⟨⟨?_, ?_⟩, h2⟩ <;> omega
  · rintro ⟨⟨h1, h2⟩, h3⟩
    refine ⟨?_, h3⟩
    omega

theorem scatter_apply (x1 : (⟨S32x8192x128, .f32⟩ : BufTy).Contents (Elt Ideal)) (x2 : (⟨S32x8192x2, .i32⟩ : BufTy).Contents (Elt Ideal))
    (hrange : ∀ (b : Fin 32) (e : Fin 8192), (x2 (ix3 b e (1 : Fin 2))).toNat < 4096)
    (b : Fin 32) (n : Fin 4096) (k : Fin 128) :
    val_main_v12 (F := Ideal) x1 x2 (ix2 (row b n) k) = Cert.GruSpec.agg x1 x2 b n k := by
  have hz : val_main_v10 (F := Ideal) (ix2 (row b n) k) = 0 := by
    rw [val_main_v10_apply, val_main_cst_apply]
    exact Ideal.ofBits_zero_f32
  -- one edge's contribution, summed over the feature axis
  have hterm : ∀ (b' : Fin 32) (e : Fin 8192),
      (∑ q : Fin 128, if dS.resultIdx? (ix2 (urow b' e) q) (val_main_v11 (F := Ideal) x2) = some (ix2 (row b n) k)
          then val_main_v9 (F := Ideal) x1 (ix2 (urow b' e) q) else 0)
        = if b' = b then (if x2 (ix3 b' e (1 : Fin 2)) = BitVec.ofNat 32 n.val then x1 (ix3 b' e k) else 0) else 0 := by
    intro b' e
    simp only [lands_iff x2 hrange b n k b' e, upd_apply]
    by_cases hb : b' = b
    · by_cases hx : x2 (ix3 b' e (1 : Fin 2)) = BitVec.ofNat 32 n.val
      · rw [if_pos hb, if_pos hx]
        have hq : ∀ q : Fin 128,
            ((b' = b ∧ x2 (ix3 b' e (1 : Fin 2)) = BitVec.ofNat 32 n.val) ∧ q = k) ↔ q = k :=
          fun q => and_iff_right ⟨hb, hx⟩
        simp only [hq]
        rw [Finset.sum_ite_eq' Finset.univ k, if_pos (Finset.mem_univ k)]
      · rw [if_pos hb, if_neg hx]
        exact Finset.sum_eq_zero fun q _ => if_neg (fun h => hx h.1.2)
    · rw [if_neg hb]
      exact Finset.sum_eq_zero fun q _ => if_neg (fun h => hb h.1.1)
  unfold val_main_v12 Host.scatterAdd
  rw [Ideal.hostScatterAdd_def]
  unfold Ideal.hostScatterAdd Cert.GruSpec.agg
  rw [hz, zero_add, Finset.sum_filter, sum_idx2]
  refine (Equiv.sum_comp rowEquiv _).symm.trans ?_
  rw [Fintype.sum_prod_type]
  refine (Finset.sum_eq_single b (fun b' _ hne => ?_) (fun h => absurd (Finset.mem_univ b) h)).trans ?_
  · exact Finset.sum_eq_zero fun e _ => (hterm b' e).trans (if_neg hne)
  · exact Finset.sum_congr rfl fun e _ => (hterm b e).trans (if_pos rfl)

end Cert.ReferenceIdeal.RefScatter

end
-- ==== Proof.RefValue.lean ====
/-
  The reference program's result is the layer's specification.

  Read one operation at a time, the reference reshapes to rows `4096·b + n`, takes the segment sum (read in
  RefScatter), forms both projections with their bias rows, splits each into three gate columns, spells the two
  sigmoids as `1 / (1 + exp (−x))`, and reshapes back: entry `(b, n, d)` is the GRU cell of the specification.
-/
import proofs.«406996_j88579405512822_3_alg».proof.Proof.Gen.ReferenceIdeal.Read
import proofs.«406996_j88579405512822_3_alg».proof.Proof.GruSpec
import proofs.«406996_j88579405512822_3_alg».proof.Proof.RefScatter
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The word `0x3F800000` is the float `1.0`, the extended real `1`. -/
private theorem ofBits_one : Ideal.ofBits .f32 0x3F800000#32 = 1 := by
  simp [Ideal.ofBits, Ideal.ieee, -EReal.coe_mul]; norm_num

/-- Row `r` of the input projection, column `j`: the contraction reads the aggregate's row and the kernel's column. -/
private theorem lidx14 (r : Fin 131072) (j : Fin 384) (k : Fin 128) : lidx_main_v14 (ix2 r j) k = ix2 r k :=
  funext fun a => by match a with | ⟨0, _⟩ => rfl | ⟨1, _⟩ => rfl

private theorem ridx14 (r : Fin 131072) (j : Fin 384) (k : Fin 128) : ridx_main_v14 (ix2 r j) k = ix2 k j :=
  funext fun a => by match a with | ⟨0, _⟩ => rfl | ⟨1, _⟩ => rfl

private theorem lidx20 (r : Fin 131072) (j : Fin 384) (k : Fin 128) : lidx_main_v20 (ix2 r j) k = ix2 r k :=
  funext fun a => by match a with | ⟨0, _⟩ => rfl | ⟨1, _⟩ => rfl

private theorem ridx20 (r : Fin 131072) (j : Fin 384) (k : Fin 128) : ridx_main_v20 (ix2 r j) k = ix2 k j :=
  funext fun a => by match a with | ⟨0, _⟩ => rfl | ⟨1, _⟩ => rfl

/-- The first bias row, sliced, flattened and broadcast over the rows, is read at `(0, j)`. -/
private theorem bias0_idx (r : Fin 131072) (j : Fin 384) :
    idx_main_v15 (idx_main_v16 (idx_main_v17 (idx_main_v18 (ix2 r j)))) = ix2 (0 : Fin 2) j :=
  funext fun a => Fin.ext (by
    match a with
    | ⟨0, _⟩ => rfl
    | ⟨1, _⟩ => have := j.isLt; show j.val % 384 = j.val; omega)

/-- The second bias row likewise is read at `(1, j)`. -/
private theorem bias1_idx (r : Fin 131072) (j : Fin 384) :
    idx_main_v21 (idx_main_v22 (idx_main_v23 (idx_main_v24 (ix2 r j)))) = ix2 (1 : Fin 2) j :=
  funext fun a => Fin.ext (by
    match a with
    | ⟨0, _⟩ => rfl
    | ⟨1, _⟩ => have := j.isLt; show j.val % 384 = j.val; omega)

/-- Row `4096·b + n` of the flattened state is atom `(b, n)`. -/
private theorem idx13 (b : Fin 32) (n : Fin 4096) (k : Fin 128) : idx_main_v13 (ix2 (RefScatter.row b n) k) = ix3 b n k :=
  funext fun a => Fin.ext (by
    have := b.isLt; have := n.isLt; have := k.isLt
    match a with
    | ⟨0, _⟩ => show ((4096 * b.val + n.val) * 128 + k.val) / 524288 = b.val; omega
    | ⟨1, _⟩ => show ((4096 * b.val + n.val) * 128 + k.val) / 128 % 4096 = n.val; omega
    | ⟨2, _⟩ => show ((4096 * b.val + n.val) * 128 + k.val) % 128 = k.val; omega)

/-- Entry `(b, n, d)` of the result is row `4096·b + n`, column `d` of the flattened one. -/
private theorem idx54 (b : Fin 32) (n : Fin 4096) (d : Fin 128) : idx_main_v54 (ix3 b n d) = ix2 (RefScatter.row b n) d :=
  funext fun a => Fin.ext (by
    have := b.isLt; have := n.isLt; have := d.isLt
    match a with
    | ⟨0, _⟩ => show ((b.val * 4096 + n.val) * 128 + d.val) / 128 = 4096 * b.val + n.val; omega
    | ⟨1, _⟩ => show ((b.val * 4096 + n.val) * 128 + d.val) % 128 = d.val; omega)

/-- The input projection at row `(b, n)`, column `j`. -/
private theorem X_at (x1 : (⟨S32x8192x128, .f32⟩ : BufTy).Contents (Elt Ideal)) (x2 : (⟨S32x8192x2, .i32⟩ : BufTy).Contents (Elt Ideal))
    (x3 : (⟨S128x384, .f32⟩ : BufTy).Contents (Elt Ideal)) (x5 : (⟨S2x384, .f32⟩ : BufTy).Contents (Elt Ideal))
    (hrange : ∀ (b : Fin 32) (e : Fin 8192), (x2 (ix3 b e (1 : Fin 2))).toNat < 4096)
    (b : Fin 32) (n : Fin 4096) (j : Fin 384) :
    val_main_v19 (F := Ideal) x1 x2 x3 x5 (ix2 (RefScatter.row b n) j) = Cert.GruSpec.matX x1 x2 x3 x5 b n j := by
  rw [val_main_v19_apply, val_main_v14_apply, val_main_v18_apply, val_main_v17_apply, val_main_v16_apply, val_main_v15_apply,
    bias0_idx, Ideal.addf_def]
  unfold Cert.GruSpec.matX
  refine congrArg (· + x5 (ix2 (0 : Fin 2) j)) (Finset.sum_congr rfl fun k _ => ?_)
  rw [lidx14, ridx14, RefScatter.scatter_apply x1 x2 hrange b n k]

/-- The recurrent projection at row `(b, n)`, column `j`. -/
private theorem H_at (x0 : (⟨S32x4096x128, .f32⟩ : BufTy).Contents (Elt Ideal))
    (x4 : (⟨S128x384, .f32⟩ : BufTy).Contents (Elt Ideal)) (x5 : (⟨S2x384, .f32⟩ : BufTy).Contents (Elt Ideal))
    (b : Fin 32) (n : Fin 4096) (j : Fin 384) :
    val_main_v25 (F := Ideal) x0 x4 x5 (ix2 (RefScatter.row b n) j) = Cert.GruSpec.matH x0 x4 x5 b n j := by
  rw [val_main_v25_apply, val_main_v20_apply, val_main_v24_apply, val_main_v23_apply, val_main_v22_apply, val_main_v21_apply,
    bias1_idx, Ideal.addf_def]
  unfold Cert.GruSpec.matH
  refine congrArg (· + x5 (ix2 (1 : Fin 2) j)) (Finset.sum_congr rfl fun k _ => ?_)
  rw [lidx20, ridx20, val_main_v13_apply, idx13]

/-- The three gate columns of a 384-wide row: the slices shift the column by `0`, `128`, `256`. -/
private theorem idx26 (r : Fin 131072) (d : Fin 128) : idx_main_v26 (ix2 r d) = ix2 r (Cert.GruSpec.col 0 d) :=
  funext fun a => Fin.ext (by
    match a with
    | ⟨0, _⟩ => rfl
    | ⟨1, _⟩ => show d.val = 128 * 0 + d.val; omega)

private theorem idx27 (r : Fin 131072) (d : Fin 128) : idx_main_v27 (ix2 r d) = ix2 r (Cert.GruSpec.col 1 d) :=
  funext fun a => Fin.ext (by
    match a with
    | ⟨0, _⟩ => rfl
    | ⟨1, _⟩ => show 128 + d.val = 128 * 1 + d.val; omega)

private theorem idx28 (r : Fin 131072) (d : Fin 128) : idx_main_v28 (ix2 r d) = ix2 r (Cert.GruSpec.col 2 d) :=
  funext fun a => Fin.ext (by
    match a with
    | ⟨0, _⟩ => rfl
    | ⟨1, _⟩ => show 256 + d.val = 128 * 2 + d.val; omega)

private theorem idx29 (r : Fin 131072) (d : Fin 128) : idx_main_v29 (ix2 r d) = ix2 r (Cert.GruSpec.col 0 d) :=
  funext fun a => Fin.ext (by
    match a with
    | ⟨0, _⟩ => rfl
    | ⟨1, _⟩ => show d.val = 128 * 0 + d.val; omega)

private theorem idx30 (r : Fin 131072) (d : Fin 128) : idx_main_v30 (ix2 r d) = ix2 r (Cert.GruSpec.col 1 d) :=
  funext fun a => Fin.ext (by
    match a with
    | ⟨0, _⟩ => rfl
    | ⟨1, _⟩ => show 128 + d.val = 128 * 1 + d.val; omega)

private theorem idx31 (r : Fin 131072) (d : Fin 128) : idx_main_v31 (ix2 r d) = ix2 r (Cert.GruSpec.col 2 d) :=
  funext fun a => Fin.ext (by
    match a with
    | ⟨0, _⟩ => rfl
    | ⟨1, _⟩ => show 256 + d.val = 128 * 2 + d.val; omega)

/-- The reference's spelling of a sigmoid, `1 / (1 + exp (−x))` with both ones the word `0x3F800000`, is the
    logistic function. -/
private theorem sigmoid_eq (x : EReal) :
    Ideal.div (Ideal.ofBits .f32 0x3F800000#32) (Ideal.ofBits .f32 0x3F800000#32 + Ideal.exp (-x)) = Ideal.logistic x := by
  rw [ofBits_one]; rfl

theorem result_eq (x0 : (⟨S32x4096x128, .f32⟩ : BufTy).Contents (Elt Ideal)) (x1 : (⟨S32x8192x128, .f32⟩ : BufTy).Contents (Elt Ideal))
    (x2 : (⟨S32x8192x2, .i32⟩ : BufTy).Contents (Elt Ideal)) (x3 x4 : (⟨S128x384, .f32⟩ : BufTy).Contents (Elt Ideal))
    (x5 : (⟨S2x384, .f32⟩ : BufTy).Contents (Elt Ideal))
    (hrange : ∀ (b : Fin 32) (e : Fin 8192), (x2 (ix3 b e (1 : Fin 2))).toNat < 4096) :
    val_main_v54 (F := Ideal) x0 x1 x2 x3 x4 x5 = Cert.GruSpec.G x0 x1 x2 x3 x4 x5 := by
  funext i
  obtain ⟨b, n, d, rfl⟩ : ∃ (b : Fin 32) (n : Fin 4096) (d : Fin 128), i = ix3 b n d := ⟨i 0, i 1, i 2, eq_ix3 i⟩
  rw [Cert.GruSpec.G_apply]
  unfold Cert.GruSpec.out Cert.GruSpec.cell
  rw [val_main_v54_apply, idx54, val_main_v53_apply, val_main_v49_apply, val_main_v52_apply, val_main_v51_apply,
    val_main_v50_apply, val_main_cst_4_apply, val_main_v48_apply, val_main_v47_apply, val_main_v46_apply,
    val_main_v45_apply, val_main_v44_apply, val_main_cst_3_apply, val_main_v43_apply, val_main_v42_apply,
    val_main_cst_2_apply, val_main_v41_apply, val_main_v40_apply, val_main_v39_apply,
    val_main_v38_apply, val_main_v37_apply, val_main_cst_1_apply, val_main_v36_apply, val_main_v35_apply,
    val_main_cst_0_apply, val_main_v34_apply, val_main_v33_apply, val_main_v32_apply,
    val_main_v26_apply, val_main_v27_apply, val_main_v28_apply, val_main_v29_apply, val_main_v30_apply, val_main_v31_apply,
    idx26, idx27, idx28, idx29, idx30, idx31,
    X_at x1 x2 x3 x5 hrange b n, X_at x1 x2 x3 x5 hrange b n, X_at x1 x2 x3 x5 hrange b n,
    H_at x0 x4 x5 b n, H_at x0 x4 x5 b n, H_at x0 x4 x5 b n,
    val_main_v13_apply, idx13]
  simp only [Ideal.addf_def, Ideal.mulf_def, Ideal.subf_def, Ideal.hostDivf_def, Ideal.hostUnary_exp_def,
    Ideal.hostUnary_tanh_def, Ideal.hostNegf_def, Ideal.negf_def, Ideal.ofBits_def]
  rw [sigmoid_eq, sigmoid_eq]

end Cert.ReferenceIdeal.RefValue

end
-- ==== Proof.lean ====
/-
  One message-passing layer — a segment sum of edge messages onto their target atoms, then a GRU cell on every
  atom — computed by a tiled kernel and by a plain array program: both end at the same array of extended reals.

  The layer (Proof/GruSpec.lean): `agg b n k = ∑ e, [tgt b e = n] · msg b e k`; `X = agg · K + bias₀`,
  `H = h · RK + bias₁`; `z = σ(X_z + H_z)`, `r = σ(X_r + H_r)`, `c = tanh(X_h + r · H_h)`; `h' = z · h + (1 − z) · c`.

  The kernel walks a (molecule, edge tile) grid. It keeps `aggᵀ` of the current molecule in a scratch accumulator,
  adding at every tile the product of the transposed message tile with the one-hot indicator `[n = tgt e]`, and after
  the molecule's last tile forms both projections and stores the cell (Proof/KPieces.lean, KPayAgg.lean, KPayGru.lean,
  KBlocks.lean, KValue.lean). Its projections are three-pass products `a·b + a·(b − b) + (a − a)·b`; the two remainder
  passes vanish because the inputs are finite, which is where the precondition's finiteness is used. The reference
  flattens (molecule, atom) to one row axis, shifts each target index by its molecule's offset and scatter-adds; that
  lands every message on its own molecule's atom exactly when the target indices lie in `[0, 4096)`, which is where
  the precondition's range is used (Proof/RefScatter.lean, RefValue.lean). The precondition is read entry by entry in
  Proof/PreDecode.lean. The kernel's frame, its run with the result array named, the reference's run and its
  operation-by-operation reading are generated modules (Proof/Gen/), imported here.
-/
import proofs.«406996_j88579405512822_3_alg».proof.Defs
import proofs.«406996_j88579405512822_3_alg».proof.Proof.Gen.Kernel
import proofs.«406996_j88579405512822_3_alg».proof.Proof.Gen.Kernel.Skeleton
import proofs.«406996_j88579405512822_3_alg».proof.Proof.Gen.Kernel.Launch
import proofs.«406996_j88579405512822_3_alg».proof.Proof.Gen.Kernel.Points
import proofs.«406996_j88579405512822_3_alg».proof.Proof.Gen.Kernel.Frame
import proofs.«406996_j88579405512822_3_alg».proof.Proof.Gen.KernelIdeal
import proofs.«406996_j88579405512822_3_alg».proof.Proof.Gen.KernelIdeal.Skeleton
import proofs.«406996_j88579405512822_3_alg».proof.Proof.Gen.KernelIdeal.Launch
import proofs.«406996_j88579405512822_3_alg».proof.Proof.Gen.KernelIdeal.Points
import proofs.«406996_j88579405512822_3_alg».proof.Proof.Gen.KernelIdeal.Frame
import proofs.«406996_j88579405512822_3_alg».proof.Proof.Gen.ReferenceIdeal
import proofs.«406996_j88579405512822_3_alg».proof.Proof.Gen.KernelIdeal.Value
import proofs.«406996_j88579405512822_3_alg».proof.Proof.Gen.ReferenceIdeal.Run
import proofs.«406996_j88579405512822_3_alg».proof.Proof.Gen.ReferenceIdeal.Read
import proofs.«406996_j88579405512822_3_alg».proof.Proof.Gen.Pre_finite_inputs
import proofs.«406996_j88579405512822_3_alg».proof.Proof.GruSpec
import proofs.«406996_j88579405512822_3_alg».proof.Proof.PreDecode
import proofs.«406996_j88579405512822_3_alg».proof.Proof.KValue
import proofs.«406996_j88579405512822_3_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization dropped four round trips through bf16 (the high parts of the two projections' operands): each
    is the identity on extended reals and the rounding on words. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Under the precondition both programs end at the layer's specification of the (agreeing) argument arrays. -/
theorem algebraic : Cert.algebraic_KernelIdeal_ReferenceIdeal := by
  intro m ρ m' ρ' hpre hagree
  have hdec := fun c => Cert.PreDecode.of_pre _ _ _ _ _ _ (hpre c)
  refine ⟨fun c => Cert.GruSpec.G (Cert.KernelIdeal.Blocks.atomArr m c) (Cert.KernelIdeal.Blocks.msgArr m c)
      (Cert.KernelIdeal.Blocks.connArr m c) (Cert.KernelIdeal.Blocks.kArr m c) (Cert.KernelIdeal.Blocks.rkArr m c)
      (Cert.KernelIdeal.Blocks.biasArr m c),
    Cert.KernelIdeal.KValue.run m ρ (fun c => (hdec c).1) (fun c => (hdec c).2.1) (fun c => (hdec c).2.2.1)
      (fun c => (hdec c).2.2.2.1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2]
  exact Cert.ReferenceIdeal.RefValue.result_eq _ _ _ _ _ _ (hdec c).2.2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
